-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x512 : Shape := ⟨3, ![16, 8192, 512]⟩
abbrev S16x8192 : Shape := ⟨2, ![16, 8192]⟩
abbrev S16x128 : Shape := ⟨2, ![16, 128]⟩
abbrev S128x512 : Shape := ⟨2, ![128, 512]⟩
abbrev S128x128 : Shape := ⟨2, ![128, 128]⟩
abbrev S_ : Shape := ⟨0, ![]⟩

class Facts : Prop where
  bcast_S_S16x8192x512 : S_.BroadcastsInDim S16x8192x512 (![] : Fin 0 → Fin S16x8192x512.rank)
  reducesTo_S16x8192x512_S_d0_1_2 : S16x8192x512.ReducesTo [0, 1, 2] S_
  h_S_ : 0 < S_.numel
  bcast_S_S16x128 : S_.BroadcastsInDim S16x128 (![] : Fin 0 → Fin S16x128.rank)
  reducesTo_S16x128_S_d0_1 : S16x128.ReducesTo [0, 1] S_
  bcast_S_S128x512 : S_.BroadcastsInDim S128x512 (![] : Fin 0 → Fin S128x512.rank)
  reducesTo_S128x512_S_d0_1 : S128x512.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S16x8192x512 .f32) (main_arg1 : IVec S16x8192 1) (main_arg2 : FVec F S16x128 .f32) (main_arg3 : FVec F S128x512 .f32) (main_arg4 : FVec F S128x128 .f32) (main_arg5 : FVec F S128x128 .f32) : IVec S_ 1 :=
  let main_v0 : FVec F S16x8192x512 .f32 := Host.absf main_arg0
  let main_cst : FVec F S_ .f32 := constant S_ .f32 0x7F800000#32
  let main_v1 : FVec F S16x8192x512 .f32 := broadcastInDim S16x8192x512 ![] bcast_S_S16x8192x512 main_cst
  let main_v2 : IVec S16x8192x512 1 := cmpf .olt main_v0 main_v1
  let main_c : IVec S_ 1 := constantI S_ 1 1#1
  let main_v3 : IVec S_ 1 := (fun x v => Host.reduce IntOp.andi x v reducesTo_S16x8192x512_S_d0_1_2 h_S_) main_v2 main_c
  let main_v4 : FVec F S16x128 .f32 := Host.absf main_arg2
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128x512 .f32 := Host.absf main_arg3
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S16x8192x512 : Shape := ⟨3, ![16, 8192, 512]⟩
abbrev S16x8192 : Shape := ⟨2, ![16, 8192]⟩
abbrev S16x128 : Shape := ⟨2, ![16, 128]⟩
abbrev S128x512 : Shape := ⟨2, ![128, 512]⟩
abbrev S128x128 : Shape := ⟨2, ![128, 128]⟩
abbrev S131072x512 : Shape := ⟨2, ![131072, 512]⟩
abbrev S128x16 : Shape := ⟨2, ![128, 16]⟩
abbrev S512x128 : Shape := ⟨2, ![512, 128]⟩
abbrev S131072x128 : Shape := ⟨2, ![131072, 128]⟩
abbrev S131072x16 : Shape := ⟨2, ![131072, 16]⟩
abbrev S2048x512 : Shape := ⟨2, ![2048, 512]⟩
abbrev S2048x128 : Shape := ⟨2, ![2048, 128]⟩
abbrev S2048x16 : Shape := ⟨2, ![2048, 16]⟩
abbrev S2048 : Shape := ⟨1, ![2048]⟩
abbrev S2048x1 : Shape := ⟨2, ![2048, 1]⟩
abbrev S16x8192x128 : Shape := ⟨3, ![16, 8192, 128]⟩
abbrev S16x8192x16 : Shape := ⟨3, ![16, 8192, 16]⟩

abbrev nBuf : Space → Nat
  | .hbm => 15
  | .vmem => 10
  | .smem => 0
  | _ => 0

abbrev bufTy : (tb : Table) → Fin (tcTables nBuf tb) → BufTy
  | .hbm, ⟨0, _⟩ => ⟨S16x8192x512, .f32⟩
  | .hbm, ⟨1, _⟩ => ⟨S16x8192, .i1⟩
  | .hbm, ⟨2, _⟩ => ⟨S16x128, .f32⟩
  | .hbm, ⟨3, _⟩ => ⟨S128x512, .f32⟩
  | .hbm, ⟨4, _⟩ => ⟨S128x128, .f32⟩
  | .hbm, ⟨5, _⟩ => ⟨S128x128, .f32⟩
  | .hbm, ⟨6, _⟩ => ⟨S131072x512, .f32⟩
  | .hbm, ⟨7, _⟩ => ⟨S16x128, .f32⟩
  | .hbm, ⟨8, _⟩ => ⟨S128x16, .f32⟩
  | .hbm, ⟨9, _⟩ => ⟨S512x128, .f32⟩
  | .hbm, ⟨10, _⟩ => ⟨S128x128, .f32⟩
  | .hbm, ⟨11, _⟩ => ⟨S131072x128, .f32⟩
  | .hbm, ⟨12, _⟩ => ⟨S131072x16, .f32⟩
  | .hbm, ⟨13, _⟩ => ⟨S16x8192x128, .f32⟩
  | .hbm, ⟨14, _⟩ => ⟨S16x8192x16, .f32⟩
  | .local _ .vmem, ⟨0, _⟩ => ⟨S2048x512, .f32⟩
  | .local _ .vmem, ⟨1, _⟩ => ⟨S2048x512, .f32⟩
  | .local _ .vmem, ⟨2, _⟩ => ⟨S512x128, .f32⟩
  | .local _ .vmem, ⟨3, _⟩ => ⟨S128x16, .f32⟩
  | .local _ .vmem, ⟨4, _⟩ => ⟨S16x128, .f32⟩
  | .local _ .vmem, ⟨5, _⟩ => ⟨S128x128, .f32⟩
  | .local _ .vmem, ⟨6, _⟩ => ⟨S2048x128, .f32⟩
  | .local _ .vmem, ⟨7, _⟩ => ⟨S2048x128, .f32⟩
  | .local _ .vmem, ⟨8, _⟩ => ⟨S2048x16, .f32⟩
  | .local _ .vmem, ⟨9, _⟩ => ⟨S2048x16, .f32⟩
  | _, _ => ⟨S16x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16x8192x512_S131072x512 : S16x8192x512.ShapeCasts S131072x512
  transposes_S16x128_S128x16_1_0 : S16x128.Transposes [1, 0] S128x16
  transposes_S128x512_S512x128_1_0 : S128x512.Transposes [1, 0] S512x128
  transposes_S128x128_S128x128_1_0 : S128x128.Transposes [1, 0] S128x128
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  reduces_S2048x16_S2048 : S2048x16.Reduces [1] S2048
  shapeCasts_S2048_S2048x1 : S2048.ShapeCasts S2048x1
  broadcasts_S2048x1_S2048x16 : S2048x1.Broadcasts S2048x16
  inb_S2048x16_S2048x16_0_0 : ∀ a, (![0, 0] : Fin 2 → Nat) a + S2048x16.size a ≤ S2048x16.size a
  h_S2048x16 : 0 < S2048x16.numel
  inb_S16x128_S16x128_0_0 : ∀ a, (![0, 0] : Fin 2 → Nat) a + S16x128.size a ≤ S16x128.size a
  h_S16x128 : 0 < S16x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2048x128_S2048x128_0_0 : ∀ a, (![0, 0] : Fin 2 → Nat) a + S2048x128.size a ≤ S2048x128.size a
  h_S2048x128 : 0 < S2048x128.numel
  shapeCasts_S131072x128_S16x8192x128 : S131072x128.ShapeCasts S16x8192x128
  shapeCasts_S131072x16_S16x8192x16 : S131072x16.ShapeCasts S16x8192x16
  dot_S16x128_S128x128_S16x128_1_1_0_0_n_n_wf : DotDims.WF S16x128 S128x128 S16x128 [1] [1] [0] [0] [] []
  dot_S2048x512_S512x128_S2048x128_1_0_0_1_n_n_wf : DotDims.WF S2048x512 S512x128 S2048x128 [1] [0] [0] [1] [] []
  dot_S2048x128_S128x16_S2048x16_1_0_0_1_n_n_wf : DotDims.WF S2048x128 S128x16 S2048x16 [1] [0] [0] [1] [] []
  dot_S2048x16_S16x128_S2048x128_1_0_0_1_n_n_wf : DotDims.WF S2048x16 S16x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S131072x128.size a
  hwx0_5 : ∀ i : grid0.Coords, EltTy.bits .f32 = 32 ∨ (Rect.block (s := S131072x128) S2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x16.size a ≤ S131072x16.size a
  hwx0_6 : ∀ i : grid0.Coords, EltTy.bits .f32 = 32 ∨ (Rect.block (s := S131072x16) S2048x16.size (cc0_transform_6 i) (hinb0_6 i)).WholeWords (EltTy.packing .f32)

variable [Facts₀]

def dot_S16x128_S128x128_S16x128_1_1_0_0_n_n : DotDims S16x128 S128x128 S16x128 where
  lhsContracting := [1]
  rhsContracting := [1]
  lhsNonContracting := [0]
  rhsNonContracting := [0]
  lhsBatch := []
  rhsBatch := []
  wf := dot_S16x128_S128x128_S16x128_1_1_0_0_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x128_S128x16_S2048x16_1_0_0_1_n_n : DotDims S2048x128 S128x16 S2048x16 where
  lhsContracting := [1]
  rhsContracting := [0]
  lhsNonContracting := [0]
  rhsNonContracting := [1]
  lhsBatch := []
  rhsBatch := []
  wf := dot_S2048x128_S128x16_S2048x16_1_0_0_1_n_n_wf
def dot_S2048x16_S16x128_S2048x128_1_0_0_1_n_n : DotDims S2048x16 S16x128 S2048x128 where
  lhsContracting := [1]
  rhsContracting := [0]
  lhsNonContracting := [0]
  rhsNonContracting := [1]
  lhsBatch := []
  rhsBatch := []
  wf := dot_S2048x16_S16x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S2048x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S2048x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x8192x512 : Shape := ⟨3, ![16, 8192, 512]⟩
abbrev S16x8192 : Shape := ⟨2, ![16, 8192]⟩
abbrev S16x128 : Shape := ⟨2, ![16, 128]⟩
abbrev S128x512 : Shape := ⟨2, ![128, 512]⟩
abbrev S128x128 : Shape := ⟨2, ![128, 128]⟩
abbrev S16x8192x128 : Shape := ⟨3, ![16, 8192, 128]⟩
abbrev S16x8192x16 : Shape := ⟨3, ![16, 8192, 16]⟩
abbrev S_ : Shape := ⟨0, ![]⟩
abbrev S16x8192x1 : Shape := ⟨3, ![16, 8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S16x8192x512, .f32⟩
  | .hbm, ⟨1, _⟩ => ⟨S16x8192, .i1⟩
  | .hbm, ⟨2, _⟩ => ⟨S16x128, .f32⟩
  | .hbm, ⟨3, _⟩ => ⟨S128x512, .f32⟩
  | .hbm, ⟨4, _⟩ => ⟨S128x128, .f32⟩
  | .hbm, ⟨5, _⟩ => ⟨S128x128, .f32⟩
  | .hbm, ⟨6, _⟩ => ⟨S16x8192x128, .f32⟩
  | .hbm, ⟨7, _⟩ => ⟨S16x128, .f32⟩
  | .hbm, ⟨8, _⟩ => ⟨S16x8192x16, .f32⟩
  | .hbm, ⟨9, _⟩ => ⟨S_, .f32⟩
  | .hbm, ⟨10, _⟩ => ⟨S16x8192x16, .f32⟩
  | .hbm, ⟨11, _⟩ => ⟨S16x8192x16, .f32⟩
  | .hbm, ⟨12, _⟩ => ⟨S_, .f32⟩
  | .hbm, ⟨13, _⟩ => ⟨S16x8192, .f32⟩
  | .hbm, ⟨14, _⟩ => ⟨S_, .f32⟩
  | .hbm, ⟨15, _⟩ => ⟨S16x8192, .f32⟩
  | .hbm, ⟨16, _⟩ => ⟨S16x8192, .f32⟩
  | .hbm, ⟨17, _⟩ => ⟨S16x8192x1, .f32⟩
  | .hbm, ⟨18, _⟩ => ⟨S16x8192x16, .f32⟩
  | .hbm, ⟨19, _⟩ => ⟨S16x8192x16, .f32⟩
  | .hbm, ⟨20, _⟩ => ⟨S16x8192x16, .f32⟩
  | .hbm, ⟨21, _⟩ => ⟨S_, .f32⟩
  | .hbm, ⟨22, _⟩ => ⟨S16x8192, .f32⟩
  | .hbm, ⟨23, _⟩ => ⟨S16x8192x1, .f32⟩
  | .hbm, ⟨24, _⟩ => ⟨S16x8192x16, .f32⟩
  | .hbm, ⟨25, _⟩ => ⟨S16x8192x16, .f32⟩
  | .hbm, ⟨26, _⟩ => ⟨S16x8192x128, .f32⟩
  | .hbm, ⟨27, _⟩ => ⟨S16x8192x128, .f32⟩
  | _, _ => ⟨S16x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S16x8192x16 : S_.BroadcastsInDim S16x8192x16 (![] : Fin 0 → Fin S16x8192x16.rank)
  reducesTo_S16x8192x16_S16x8192_d2 : S16x8192x16.ReducesTo [2] S16x8192
  h_S_ : 0 < S_.numel
  bcast_S_S16x8192 : S_.BroadcastsInDim S16x8192 (![] : Fin 0 → Fin S16x8192.rank)
  bcast_S16x8192_S16x8192x1_0_1 : S16x8192.BroadcastsInDim S16x8192x1 (![0, 1] : Fin 2 → Fin S16x8192x1.rank)
  bcast_S16x8192x1_S16x8192x16_0_1_2 : S16x8192x1.BroadcastsInDim S16x8192x16 (![0, 1, 2] : Fin 3 → Fin S16x8192x16.rank)
  dot_S16x8192x512_S128x512_S16x8192x128_2_1_01_0_n_n_wf : DotDims.WF S16x8192x512 S128x512 S16x8192x128 [2] [1] [0, 1] [0] [] []
  dot_S16x128_S128x128_S16x128_1_1_0_0_n_n_wf : DotDims.WF S16x128 S128x128 S16x128 [1] [1] [0] [0] [] []
  dot_S16x8192x128_S16x128_S16x8192x16_2_1_01_0_n_n_wf : DotDims.WF S16x8192x128 S16x128 S16x8192x16 [2] [1] [0, 1] [0] [] []
  dot_S16x8192x16_S16x128_S16x8192x128_2_0_01_1_n_n_wf : DotDims.WF S16x8192x16 S16x128 S16x8192x128 [2] [0] [0, 1] [1] [] []
  dot_S16x8192x128_S128x128_S16x8192x128_2_1_01_0_n_n_wf : DotDims.WF S16x8192x128 S128x128 S16x8192x128 [2] [1] [0, 1] [0] [] []

variable [Facts₀]

def dot_S16x8192x512_S128x512_S16x8192x128_2_1_01_0_n_n : DotDims S16x8192x512 S128x512 S16x8192x128 where
  lhsContracting := [2]
  rhsContracting := [1]
  lhsNonContracting := [0, 1]
  rhsNonContracting := [0]
  lhsBatch := []
  rhsBatch := []
  wf := dot_S16x8192x512_S128x512_S16x8192x128_2_1_01_0_n_n_wf
def dot_S16x128_S128x128_S16x128_1_1_0_0_n_n : DotDims S16x128 S128x128 S16x128 where
  lhsContracting := [1]
  rhsContracting := [1]
  lhsNonContracting := [0]
  rhsNonContracting := [0]
  lhsBatch := []
  rhsBatch := []
  wf := dot_S16x128_S128x128_S16x128_1_1_0_0_n_n_wf
def dot_S16x8192x128_S16x128_S16x8192x16_2_1_01_0_n_n : DotDims S16x8192x128 S16x128 S16x8192x16 where
  lhsContracting := [2]
  rhsContracting := [1]
  lhsNonContracting := [0, 1]
  rhsNonContracting := [0]
  lhsBatch := []
  rhsBatch := []
  wf := dot_S16x8192x128_S16x128_S16x8192x16_2_1_01_0_n_n_wf
def dot_S16x8192x16_S16x128_S16x8192x128_2_0_01_1_n_n : DotDims S16x8192x16 S16x128 S16x8192x128 where
  lhsContracting := [2]
  rhsContracting := [0]
  lhsNonContracting := [0, 1]
  rhsNonContracting := [1]
  lhsBatch := []
  rhsBatch := []
  wf := dot_S16x8192x16_S16x128_S16x8192x128_2_0_01_1_n_n_wf
def dot_S16x8192x128_S128x128_S16x8192x128_2_1_01_0_n_n : DotDims S16x8192x128 S128x128 S16x8192x128 where
  lhsContracting := [2]
  rhsContracting := [1]
  lhsNonContracting := [0, 1]
  rhsNonContracting := [0]
  lhsBatch := []
  rhsBatch := []
  wf := dot_S16x8192x128_S128x128_S16x8192x128_2_1_01_0_n_n_wf

class Facts : Prop extends Facts₀ where

variable [Facts]
-- ==== Proof.Spec.lean ====
/-
  What both programs compute, as mathematics over the extended reals.

  Every position (b, n) of the input carries a row x of 512 numbers. The row is projected to a query of
  128 numbers, scored against 16 keys (each key a row of the codebook pushed through the key matrix),
  the scores are scaled by one fixed constant and turned into 16 weights by a softmax (subtract the
  row's largest score, exponentiate, divide by the sum), the weights mix the 16 codebook rows into
  128 numbers, and those are projected once more to the 128 outputs. The two results are the weights
  and the projected mixture, position by position. Nothing here mentions a tiling: a position's
  results depend on that position's row and on the four parameter matrices only.
-/
import Idealize.ShloMosaic.PureOps.Ideal
import Idealize.ShloMosaic.Lib.ValueIdx

noncomputable section

namespace Cert.SoftCodebook

open Idealize.ShloMosaic Idealize.ShloMosaic.ValueIdx

/-- The constant every score is multiplied by: the same 32-bit pattern in both programs. -/
abbrev scale : EReal := Ideal.ofBits .f32 0x3DB504F3#32

/-- The pattern of minus infinity, from which both programs start a row's maximum. -/
abbrev floor : EReal := Ideal.ofBits .f32 0xFF800000#32

/-- A row's query: entry p is the row against row p of the query matrix. -/
def query (x : Fin 512 → EReal) (wq : Fin 128 → Fin 512 → EReal) (p : Fin 128) : EReal :=
  ∑ d : Fin 512, x d * wq p d

/-- Key k: codebook row k against every row p of the key matrix. -/
def key (cb : Fin 16 → Fin 128 → EReal) (wk : Fin 128 → Fin 128 → EReal) (k : Fin 16) (p : Fin 128) : EReal :=
  ∑ d : Fin 128, cb k d * wk p d

/-- The scaled score of a query against key k. -/
def score (q : Fin 128 → EReal) (ks : Fin 16 → Fin 128 → EReal) (k : Fin 16) : EReal :=
  (∑ p : Fin 128, q p * ks k p) * scale

/-- The largest of a row's 16 scores, taken from minus infinity (and once more against it). -/
def peak (s : Fin 16 → EReal) : EReal :=
  max floor ((Finset.univ : Finset (Fin 16)).fold max floor s)

/-- The exponential of a score's distance below the row's peak. -/
def raised (s : Fin 16 → EReal) (k : Fin 16) : EReal :=
  Ideal.exp (s k - peak s)

/-- The softmax weight of score k within its row. -/
def weight (s : Fin 16 → EReal) (k : Fin 16) : EReal :=
  Ideal.div (raised s k) (∑ j : Fin 16, raised s j)

/-- The codebook rows mixed by a row of weights. -/
def mixture (w : Fin 16 → EReal) (cb : Fin 16 → Fin 128 → EReal) (d : Fin 128) : EReal :=
  ∑ k : Fin 16, w k * cb k d

/-- A mixture against row p of the output matrix. -/
def project (mx : Fin 128 → EReal) (wo : Fin 128 → Fin 128 → EReal) (p : Fin 128) : EReal :=
  ∑ d : Fin 128, mx d * wo p d

/-- A row's 16 weights, from the row, the query matrix and the keys. -/
def rowWeights (x : Fin 512 → EReal) (wq : Fin 128 → Fin 512 → EReal) (ks : Fin 16 → Fin 128 → EReal) : Fin 16 → EReal :=
  weight (score (query x wq) ks)

/-- A row's 128 outputs. -/
def rowOutput (x : Fin 512 → EReal) (wq : Fin 128 → Fin 512 → EReal) (ks : Fin 16 → Fin 128 → EReal)
    (cb : Fin 16 → Fin 128 → EReal) (wo : Fin 128 → Fin 128 → EReal) : Fin 128 → EReal :=
  project (mixture (rowWeights x wq ks) cb) wo

/-! ## The two result arrays, as functions of the argument arrays -/

abbrev Carry : Shape := ⟨3, ![16, 8192, 512]⟩
abbrev Book : Shape := ⟨2, ![16, 128]⟩
abbrev QueryW : Shape := ⟨2, ![128, 512]⟩
abbrev Square : Shape := ⟨2, ![128, 128]⟩
abbrev Weights : Shape := ⟨3, ![16, 8192, 16]⟩
abbrev Output : Shape := ⟨3, ![16, 8192, 128]⟩

/-- A matrix given on two-coordinate indices, read as a function of its row and its column. -/
abbrev mat {a b : Nat} (M : (⟨2, ![a, b]⟩ : Shape).Idx → EReal) (i : Fin a) (j : Fin b) : EReal := M (ix2 i j)

/-- Row (b, n) of the input array. -/
abbrev rowAt (A : Carry.Idx → EReal) (b : Fin 16) (n : Fin 8192) (d : Fin 512) : EReal := A (ix3 b n d)

/-- The weights array: position (b, n), weight k. -/
def weightsArr (A : Carry.Idx → EReal) (cb : Book.Idx → EReal) (wq : QueryW.Idx → EReal) (wk : Square.Idx → EReal) :
    Weights.Idx → EReal := fun i =>
  rowWeights (rowAt A ⟨(i 0).val, (i 0).isLt⟩ ⟨(i 1).val, (i 1).isLt⟩) (mat wq) (key (mat cb) (mat wk)) ⟨(i 2).val, (i 2).isLt⟩

/-- The output array: position (b, n), output p. -/
def outputArr (A : Carry.Idx → EReal) (cb : Book.Idx → EReal) (wq : QueryW.Idx → EReal) (wk : Square.Idx → EReal)
    (wo : Square.Idx → EReal) : Output.Idx → EReal := fun i =>
  rowOutput (rowAt A ⟨(i 0).val, (i 0).isLt⟩ ⟨(i 1).val, (i 1).isLt⟩) (mat wq) (key (mat cb) (mat wk)) (mat cb) (mat wo)
    ⟨(i 2).val, (i 2).isLt⟩

theorem weightsArr_ix3 (A : Carry.Idx → EReal) (cb : Book.Idx → EReal) (wq : QueryW.Idx → EReal) (wk : Square.Idx → EReal)
    (b : Fin 16) (n : Fin 8192) (k : Fin 16) :
    weightsArr A cb wq wk (ix3 b n k) = rowWeights (rowAt A b n) (mat wq) (key (mat cb) (mat wk)) k := rfl

theorem outputArr_ix3 (A : Carry.Idx → EReal) (cb : Book.Idx → EReal) (wq : QueryW.Idx → EReal) (wk : Square.Idx → EReal)
    (wo : Square.Idx → EReal) (b : Fin 16) (n : Fin 8192) (p : Fin 128) :
    outputArr A cb wq wk wo (ix3 b n p) = rowOutput (rowAt A b n) (mat wq) (key (mat cb) (mat wk)) (mat cb) (mat wo) p := rfl

end Cert.SoftCodebook

end
-- ==== Proof.RefValue.lean ====
/-
  The reference's two results are the specification's two arrays.

  The reference is read one operation at a time, at one position (b, n) of the input: each intermediate array,
  at the index built from b, n and one more coordinate, is the matching quantity of the specification for the row
  at (b, n). Each step unfolds one operation and identifies the indices it reads its operands at.
-/
import proofs.«176541_j85693187490397_1_alg».proof.Proof.Gen.ReferenceIdeal.Read
import proofs.«176541_j85693187490397_1_alg».proof.Proof.Spec

noncomputable section

namespace Cert.SoftCodebook.Reference

open Idealize.ShloMosaic Idealize.ShloMosaic.ValueIdx Cert.ReferenceIdeal Cert.SoftCodebook

section Stages

variable (x0 : (⟨S16x8192x512, .f32⟩ : BufTy).Contents (Elt Ideal)) (x2 : (⟨S16x128, .f32⟩ : BufTy).Contents (Elt Ideal))
    (x3 : (⟨S128x512, .f32⟩ : BufTy).Contents (Elt Ideal)) (x4 x5 : (⟨S128x128, .f32⟩ : BufTy).Contents (Elt Ideal))

/-- The scores of the row at position (b, n). -/
private abbrev rowScores (b : Fin 16) (n : Fin 8192) : Fin 16 → EReal :=
  score (query (rowAt x0 b n) (mat x3)) (key (mat x2) (mat x4))

/-- Query entry p of the row at (b, n): the first product at (b, n, p). -/
private theorem queries_eq (b : Fin 16) (n : Fin 8192) (p : Fin 128) :
    Read.val_main_v0 (F := Ideal) x0 x3 (ix3 b n p) = query (rowAt x0 b n) (mat x3) p := by
  rw [Read.val_main_v0_apply]
  unfold query
  refine Finset.sum_congr rfl fun d _ => ?_
  have el : Read.lidx_main_v0 (ix3 b n p) d = ix3 b n d :=
    funext fun a => Fin.ext (by match a with | ⟨0, _⟩ => rfl | ⟨1, _⟩ => rfl | ⟨2, _⟩ => rfl)
  have er : Read.ridx_main_v0 (ix3 b n p) d = ix2 p d :=
    funext fun a => Fin.ext (by match a with | ⟨0, _⟩ => rfl | ⟨1, _⟩ => rfl)
  rw [el, er]

/-- Entry p of key k: the second product at (k, p). -/
private theorem keys_eq (k : Fin 16) (p : Fin 128) :
    Read.val_main_v1 (F := Ideal) x2 x4 (ix2 k p) = key (mat x2) (mat x4) k p := by
  rw [Read.val_main_v1_apply]
  unfold key
  refine Finset.sum_congr rfl fun d _ => ?_
  have el : Read.lidx_main_v1 (ix2 k p) d = ix2 k d :=
    funext fun a => Fin.ext (by match a with | ⟨0, _⟩ => rfl | ⟨1, _⟩ => rfl)
  have er : Read.ridx_main_v1 (ix2 k p) d = ix2 p d :=
    funext fun a => Fin.ext (by match a with | ⟨0, _⟩ => rfl | ⟨1, _⟩ => rfl)
  rw [el, er]

/-- The scaled score of the row at (b, n) against key k. -/
private theorem scores_eq (b : Fin 16) (n : Fin 8192) (k : Fin 16) :
    Read.val_main_v4 (F := Ideal) x0 x2 x3 x4 (ix3 b n k) = rowScores x0 x2 x3 x4 b n k := by
  rw [Read.val_main_v4_apply, Read.val_main_v2_apply, Read.val_main_v3_apply, Read.val_main_cst_apply]
  show (∑ p : Fin 128, _) * scale = (∑ p : Fin 128, _) * scale
  refine congrArg (· * scale) (Finset.sum_congr rfl fun p _ => ?_)
  have el : Read.lidx_main_v2 (ix3 b n k) p = ix3 b n p :=
    funext fun a => Fin.ext (by match a with | ⟨0, _⟩ => rfl | ⟨1, _⟩ => rfl | ⟨2, _⟩ => rfl)
  have er : Read.ridx_main_v2 (ix3 b n k) p = ix2 k p :=
    funext fun a => Fin.ext (by match a with | ⟨0, _⟩ => rfl | ⟨1, _⟩ => rfl)
  rw [el, er, queries_eq, keys_eq]

/-- The fold of the maximum over the 16 scores of the row at (b, n), from minus infinity: the reduction over the last
    axis read as a fold over that axis's coordinates. -/
private theorem fold_eq (b : Fin 16) (n : Fin 8192) :
    Read.val_main_v5 (F := Ideal) x0 x2 x3 x4 (ix2 b n)
      = (Finset.univ : Finset (Fin 16)).fold max floor (rowScores x0 x2 x3 x4 b n) := by
  unfold Read.val_main_v5
  have h : S16x8192x16.Reduces [2] S16x8192 := by decide
  refine (Host.reduce_eq_fold_single FloatOps.maximumf _ _ _ h _ (ix2 b n)).trans ?_
  have hf : (Read.val_main_v4 (F := Ideal) x0 x2 x3 x4 ∘ h.lift (ix2 b n)) = fun k : Fin 16 => rowScores x0 x2 x3 x4 b n k :=
    funext fun k => (congrArg (Read.val_main_v4 (F := Ideal) x0 x2 x3 x4)
      (funext fun a => Fin.ext (by match a with | ⟨0, _⟩ => rfl | ⟨1, _⟩ => rfl | ⟨2, _⟩ => rfl))).trans (scores_eq x0 x2 x3 x4 b n k)
  exact congrArg (fun f => Finset.fold max floor f (Finset.univ : Finset (Fin 16))) hf

/-- The row's peak: the fold once more against minus infinity. -/
private theorem peak_eq (b : Fin 16) (n : Fin 8192) :
    Read.val_main_v7 (F := Ideal) x0 x2 x3 x4 (ix2 b n) = peak (rowScores x0 x2 x3 x4 b n) := by
  rw [Read.val_main_v7_apply, Read.val_main_v6_apply, Read.val_main_cst_1_apply, fold_eq]
  rfl

/-- The peak spread back along the last axis: every k reads the peak of the row at (b, n). -/
private theorem spread_peak_eq (b : Fin 16) (n : Fin 8192) (k : Fin 16) :
    Read.val_main_v9 (F := Ideal) x0 x2 x3 x4 (ix3 b n k) = peak (rowScores x0 x2 x3 x4 b n) := by
  rw [Read.val_main_v9_apply, Read.val_main_v8_apply]
  have e : Read.idx_main_v8 (Read.idx_main_v9 (ix3 b n k)) = ix2 b n :=
    funext fun a => Fin.ext (by match a with | ⟨0, _⟩ => rfl | ⟨1, _⟩ => rfl)
  rw [e, peak_eq]

/-- The exponential of score k's distance below the peak. -/
private theorem raised_eq (b : Fin 16) (n : Fin 8192) (k : Fin 16) :
    Read.val_main_v11 (F := Ideal) x0 x2 x3 x4 (ix3 b n k) = raised (rowScores x0 x2 x3 x4 b n) k := by
  rw [Read.val_main_v11_apply, Read.val_main_v10_apply, scores_eq, spread_peak_eq]
  rfl

/-- The sum of the row's 16 exponentials; the sum starts from the pattern of zero, which is zero. -/
private theorem total_eq (b : Fin 16) (n : Fin 8192) :
    Read.val_main_v12 (F := Ideal) x0 x2 x3 x4 (ix2 b n) = ∑ j : Fin 16, raised (rowScores x0 x2 x3 x4 b n) j := by
  rw [Read.val_main_v12_apply, Read.val_main_cst_2_apply]
  show Ideal.ofBits .f32 0x00000000#32 + _ = _
  rw [Ideal.ofBits_zero_f32, zero_add]
  refine Finset.sum_congr rfl fun j _ => ?_
  have e : Read.idx_main_v12 (ix2 b n) j = ix3 b n j :=
    funext fun a => Fin.ext (by match a with | ⟨0, _⟩ => rfl | ⟨1, _⟩ => rfl | ⟨2, _⟩ => rfl)
  rw [e, raised_eq]

/-- Weight k of the row at (b, n): its exponential over the row's sum. -/
private theorem weights_at (b : Fin 16) (n : Fin 8192) (k : Fin 16) :
    Read.val_main_v15 (F := Ideal) x0 x2 x3 x4 (ix3 b n k)
      = rowWeights (rowAt x0 b n) (mat x3) (key (mat x2) (mat x4)) k := by
  rw [Read.val_main_v15_apply, Read.val_main_v14_apply, Read.val_main_v13_apply, raised_eq]
  have e : Read.idx_main_v13 (Read.idx_main_v14 (ix3 b n k)) = ix2 b n :=
    funext fun a => Fin.ext (by match a with | ⟨0, _⟩ => rfl | ⟨1, _⟩ => rfl)
  rw [e, total_eq]
  rfl

/-- Entry d of the codebook rows mixed by the weights of the row at (b, n). -/
private theorem mixture_at (b : Fin 16) (n : Fin 8192) (d : Fin 128) :
    Read.val_main_v16 (F := Ideal) x0 x2 x3 x4 (ix3 b n d)
      = mixture (rowWeights (rowAt x0 b n) (mat x3) (key (mat x2) (mat x4))) (mat x2) d := by
  rw [Read.val_main_v16_apply]
  unfold mixture
  refine Finset.sum_congr rfl fun k _ => ?_
  have el : Read.lidx_main_v16 (ix3 b n d) k = ix3 b n k :=
    funext fun a => Fin.ext (by match a with | ⟨0, _⟩ => rfl | ⟨1, _⟩ => rfl | ⟨2, _⟩ => rfl)
  have er : Read.ridx_main_v16 (ix3 b n d) k = ix2 k d :=
    funext fun a => Fin.ext (by match a with | ⟨0, _⟩ => rfl | ⟨1, _⟩ => rfl)
  rw [el, er, weights_at]

/-- Output p of the row at (b, n): the mixture against row p of the output matrix. -/
private theorem output_at (b : Fin 16) (n : Fin 8192) (p : Fin 128) :
    Read.val_main_v17 (F := Ideal) x0 x2 x3 x4 x5 (ix3 b n p)
      = rowOutput (rowAt x0 b n) (mat x3) (key (mat x2) (mat x4)) (mat x2) (mat x5) p := by
  rw [Read.val_main_v17_apply]
  unfold rowOutput project
  refine Finset.sum_congr rfl fun d _ => ?_
  have el : Read.lidx_main_v17 (ix3 b n p) d = ix3 b n d :=
    funext fun a => Fin.ext (by match a with | ⟨0, _⟩ => rfl | ⟨1, _⟩ => rfl | ⟨2, _⟩ => rfl)
  have er : Read.ridx_main_v17 (ix3 b n p) d = ix2 p d :=
    funext fun a => Fin.ext (by match a with | ⟨0, _⟩ => rfl | ⟨1, _⟩ => rfl)
  rw [el, er, mixture_at]

end Stages

/-- The reference's weights, as a function of its argument arrays, are the specification's. -/
theorem weights_eq (x0 : (⟨S16x8192x512, .f32⟩ : BufTy).Contents (Elt Ideal)) (x2 : (⟨S16x128, .f32⟩ : BufTy).Contents (Elt Ideal))
    (x3 : (⟨S128x512, .f32⟩ : BufTy).Contents (Elt Ideal)) (x4 : (⟨S128x128, .f32⟩ : BufTy).Contents (Elt Ideal)) :
    Cert.ReferenceIdeal.Read.val_main_v15 (F := Ideal) x0 x2 x3 x4 = weightsArr x0 x2 x3 x4 := by
  funext i
  obtain ⟨b, n, k, rfl⟩ : ∃ (b : Fin 16) (n : Fin 8192) (k : Fin 16), i = ix3 b n k := ⟨i 0, i 1, i 2, eq_ix3 i⟩
  rw [weightsArr_ix3]
  exact weights_at x0 x2 x3 x4 b n k

/-- The reference's output, as a function of its argument arrays, is the specification's. -/
theorem output_eq (x0 : (⟨S16x8192x512, .f32⟩ : BufTy).Contents (Elt Ideal)) (x2 : (⟨S16x128, .f32⟩ : BufTy).Contents (Elt Ideal))
    (x3 : (⟨S128x512, .f32⟩ : BufTy).Contents (Elt Ideal)) (x4 x5 : (⟨S128x128, .f32⟩ : BufTy).Contents (Elt Ideal)) :
    Cert.ReferenceIdeal.Read.val_main_v17 (F := Ideal) x0 x2 x3 x4 x5 = outputArr x0 x2 x3 x4 x5 := by
  funext i
  obtain ⟨b, n, p, rfl⟩ : ∃ (b : Fin 16) (n : Fin 8192) (p : Fin 128), i = ix3 b n p := ⟨i 0, i 1, i 2, eq_ix3 i⟩
  rw [outputArr_ix3]
  exact output_at x0 x2 x3 x4 x5 b n p

end Cert.SoftCodebook.Reference

end
-- ==== Proof.Payload.lean ====
/-
  The kernel body's two stored values, read at an entry of the block: row r of the block's results depends on
  row r of the input block and on the four parameter blocks only, and is the specification's row function.
-/
import proofs.«176541_j85693187490397_1_alg».proof.Proof.Gen.KernelIdeal.Skeleton
import proofs.«176541_j85693187490397_1_alg».proof.Proof.Spec
import Idealize.ShloMosaic.Lib.Pipeline.Value
import Idealize.ShloMosaic.Lib.ValueIdx
import Idealize.ShloMosaic.PureOps.Ideal.Laws

noncomputable section

namespace Cert.SoftCodebook.Body

open Idealize.ShloMosaic Idealize.ShloMosaic.ValueIdx Cert.KernelIdeal Cert.KernelIdeal.Gen Cert.SoftCodebook

/-! ### The input block against the query matrix -/

private theorem lhs_q_0 (i : S2048x128.Idx) (q : dot_S2048x512_S512x128_S2048x128_1_0_0_1_n_n.contr.Idx) :
    (dot_S2048x512_S512x128_S2048x128_1_0_0_1_n_n.lhsIdx i q 0).val = (i 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
private theorem lhs_q_1 (i : S2048x128.Idx) (q : dot_S2048x512_S512x128_S2048x128_1_0_0_1_n_n.contr.Idx) :
    (dot_S2048x512_S512x128_S2048x128_1_0_0_1_n_n.lhsIdx i q 1).val = (q ⟨0, by decide⟩).val :=
  dot_S2048x512_S512x128_S2048x128_1_0_0_1_n_n.lhsIdx_val_of_single rfl i q
private theorem rhs_q_0 (i : S2048x128.Idx) (q : dot_S2048x512_S512x128_S2048x128_1_0_0_1_n_n.contr.Idx) :
    (dot_S2048x512_S512x128_S2048x128_1_0_0_1_n_n.rhsIdx i q 0).val = (q ⟨0, by decide⟩).val :=
  dot_S2048x512_S512x128_S2048x128_1_0_0_1_n_n.rhsIdx_val_of_single rfl i q
private theorem rhs_q_1 (i : S2048x128.Idx) (q : dot_S2048x512_S512x128_S2048x128_1_0_0_1_n_n.contr.Idx) :
    (dot_S2048x512_S512x128_S2048x128_1_0_0_1_n_n.rhsIdx i q 1).val = (i 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl
/-- Entry (r, p) of the product into a zero accumulator: the sum over the shared axis. -/
private theorem matmul_q (a : FVec Ideal S2048x512 .bf16) (b : FVec Ideal S512x128 .bf16) (r : Fin 2048) (p : Fin 128) :
    matmul dot_S2048x512_S512x128_S2048x128_1_0_0_1_n_n none a b (constant (F := Ideal) S2048x128 .f32 0x00000000#32) (ix2 r p)
      = ∑ k : Fin 512, a (ix2 r k) * b (ix2 k p) := by
  show FloatOps.matmul dot_S2048x512_S512x128_S2048x128_1_0_0_1_n_n none a b (constant (F := Ideal) S2048x128 .f32 0x00000000#32) (ix2 r p) = _
  rw [Ideal.matmul_constant_zero_apply, ← Equiv.sum_comp (ValueIdx.contrEquiv1 dot_S2048x512_S512x128_S2048x128_1_0_0_1_n_n 512 rfl rfl).symm]
  refine Finset.sum_congr rfl fun k _ => ?_
  have hk := ValueIdx.contrEquiv1_symm_val dot_S2048x512_S512x128_S2048x128_1_0_0_1_n_n 512 rfl rfl k
  have el : dot_S2048x512_S512x128_S2048x128_1_0_0_1_n_n.lhsIdx (ix2 r p) ((ValueIdx.contrEquiv1 dot_S2048x512_S512x128_S2048x128_1_0_0_1_n_n 512 rfl rfl).symm k) = ix2 r k := funext fun a => Fin.ext (by
    match a with
    | ⟨0, _⟩ => exact lhs_q_0 _ _
    | ⟨1, _⟩ => exact (lhs_q_1 _ _).trans hk)
  have er : dot_S2048x512_S512x128_S2048x128_1_0_0_1_n_n.rhsIdx (ix2 r p) ((ValueIdx.contrEquiv1 dot_S2048x512_S512x128_S2048x128_1_0_0_1_n_n 512 rfl rfl).symm k) = ix2 k p := funext fun a => Fin.ext (by
    match a with
    | ⟨0, _⟩ => exact (rhs_q_0 _ _).trans hk
    | ⟨1, _⟩ => exact rhs_q_1 _ _)
  rw [el, er]

/-! ### The queries against the keys -/

private theorem lhs_s_0 (i : S2048x16.Idx) (q : dot_S2048x128_S128x16_S2048x16_1_0_0_1_n_n.contr.Idx) :
    (dot_S2048x128_S128x16_S2048x16_1_0_0_1_n_n.lhsIdx i q 0).val = (i 0).val := by
  unfold DotDims.lhsIdx
  rw [dif_neg (show ¬(0 : Fin S2048x128.rank) ∈ dot_S2048x128_S128x16_S2048x16_1_0_0_1_n_n.lhsBatch by decide), dif_pos (show (0 : Fin S2048x128.rank) ∈ dot_S2048x128_S128x16_S2048x16_1_0_0_1_n_n.lhsNonContracting by decide)]
  rfl
private theorem lhs_s_1 (i : S2048x16.Idx) (q : dot_S2048x128_S128x16_S2048x16_1_0_0_1_n_n.contr.Idx) :
    (dot_S2048x128_S128x16_S2048x16_1_0_0_1_n_n.lhsIdx i q 1).val = (q ⟨0, by decide⟩).val :=
  dot_S2048x128_S128x16_S2048x16_1_0_0_1_n_n.lhsIdx_val_of_single rfl i q
private theorem rhs_s_0 (i : S2048x16.Idx) (q : dot_S2048x128_S128x16_S2048x16_1_0_0_1_n_n.contr.Idx) :
    (dot_S2048x128_S128x16_S2048x16_1_0_0_1_n_n.rhsIdx i q 0).val = (q ⟨0, by decide⟩).val :=
  dot_S2048x128_S128x16_S2048x16_1_0_0_1_n_n.rhsIdx_val_of_single rfl i q
private theorem rhs_s_1 (i : S2048x16.Idx) (q : dot_S2048x128_S128x16_S2048x16_1_0_0_1_n_n.contr.Idx) :
    (dot_S2048x128_S128x16_S2048x16_1_0_0_1_n_n.rhsIdx i q 1).val = (i 1).val := by
  unfold DotDims.rhsIdx
  rw [dif_neg (show ¬(1 : Fin S128x16.rank) ∈ dot_S2048x128_S128x16_S2048x16_1_0_0_1_n_n.rhsBatch by decide), dif_pos (show (1 : Fin S128x16.rank) ∈ dot_S2048x128_S128x16_S2048x16_1_0_0_1_n_n.rhsNonContracting by decide)]
  rfl
/-- Entry (r, p) of the product into a zero accumulator: the sum over the shared axis. -/
private theorem matmul_s (a : FVec Ideal S2048x128 .bf16) (b : FVec Ideal S128x16 .bf16) (r : Fin 2048) (p : Fin 16) :
    matmul dot_S2048x128_S128x16_S2048x16_1_0_0_1_n_n none a b (constant (F := Ideal) S2048x16 .f32 0x00000000#32) (ix2 r p)
      = ∑ k : Fin 128, a (ix2 r k) * b (ix2 k p) := by
  show FloatOps.matmul dot_S2048x128_S128x16_S2048x16_1_0_0_1_n_n none a b (constant (F := Ideal) S2048x16 .f32 0x00000000#32) (ix2 r p) = _
  rw [Ideal.matmul_constant_zero_apply, ← Equiv.sum_comp (ValueIdx.contrEquiv1 dot_S2048x128_S128x16_S2048x16_1_0_0_1_n_n 128 rfl rfl).symm]
  refine Finset.sum_congr rfl fun k _ => ?_
  have hk := ValueIdx.contrEquiv1_symm_val dot_S2048x128_S128x16_S2048x16_1_0_0_1_n_n 128 rfl rfl k
  have el : dot_S2048x128_S128x16_S2048x16_1_0_0_1_n_n.lhsIdx (ix2 r p) ((ValueIdx.contrEquiv1 dot_S2048x128_S128x16_S2048x16_1_0_0_1_n_n 128 rfl rfl).symm k) = ix2 r k := funext fun a => Fin.ext (by
    match a with
    | ⟨0, _⟩ => exact lhs_s_0 _ _
    | ⟨1, _⟩ => exact (lhs_s_1 _ _).trans hk)
  have er : dot_S2048x128_S128x16_S2048x16_1_0_0_1_n_n.rhsIdx (ix2 r p) ((ValueIdx.contrEquiv1 dot_S2048x128_S128x16_S2048x16_1_0_0_1_n_n 128 rfl rfl).symm k) = ix2 k p := funext fun a => Fin.ext (by
    match a with
    | ⟨0, _⟩ => exact (rhs_s_0 _ _).trans hk
    | ⟨1, _⟩ => exact rhs_s_1 _ _)
  rw [el, er]

/-! ### The weights against the codebook -/

private theorem lhs_m_0 (i : S2048x128.Idx) (q : dot_S2048x16_S16x128_S2048x128_1_0_0_1_n_n.contr.Idx) :
    (dot_S2048x16_S16x128_S2048x128_1_0_0_1_n_n.lhsIdx i q 0).val = (i 0).val := by
  unfold DotDims.lhsIdx
  rw [dif_neg (show ¬(0 : Fin S2048x16.rank) ∈ dot_S2048x16_S16x128_S2048x128_1_0_0_1_n_n.lhsBatch by decide), dif_pos (show (0 : Fin S2048x16.rank) ∈ dot_S2048x16_S16x128_S2048x128_1_0_0_1_n_n.lhsNonContracting by decide)]
  rfl
private theorem lhs_m_1 (i : S2048x128.Idx) (q : dot_S2048x16_S16x128_S2048x128_1_0_0_1_n_n.contr.Idx) :
    (dot_S2048x16_S16x128_S2048x128_1_0_0_1_n_n.lhsIdx i q 1).val = (q ⟨0, by decide⟩).val :=
  dot_S2048x16_S16x128_S2048x128_1_0_0_1_n_n.lhsIdx_val_of_single rfl i q
private theorem rhs_m_0 (i : S2048x128.Idx) (q : dot_S2048x16_S16x128_S2048x128_1_0_0_1_n_n.contr.Idx) :
    (dot_S2048x16_S16x128_S2048x128_1_0_0_1_n_n.rhsIdx i q 0).val = (q ⟨0, by decide⟩).val :=
  dot_S2048x16_S16x128_S2048x128_1_0_0_1_n_n.rhsIdx_val_of_single rfl i q
private theorem rhs_m_1 (i : S2048x128.Idx) (q : dot_S2048x16_S16x128_S2048x128_1_0_0_1_n_n.contr.Idx) :
    (dot_S2048x16_S16x128_S2048x128_1_0_0_1_n_n.rhsIdx i q 1).val = (i 1).val := by
  unfold DotDims.rhsIdx
  rw [dif_neg (show ¬(1 : Fin S16x128.rank) ∈ dot_S2048x16_S16x128_S2048x128_1_0_0_1_n_n.rhsBatch by decide), dif_pos (show (1 : Fin S16x128.rank) ∈ dot_S2048x16_S16x128_S2048x128_1_0_0_1_n_n.rhsNonContracting by decide)]
  rfl
/-- Entry (r, p) of the product into a zero accumulator: the sum over the shared axis. -/
private theorem matmul_m (a : FVec Ideal S2048x16 .bf16) (b : FVec Ideal S16x128 .bf16) (r : Fin 2048) (p : Fin 128) :
    matmul dot_S2048x16_S16x128_S2048x128_1_0_0_1_n_n none a b (constant (F := Ideal) S2048x128 .f32 0x00000000#32) (ix2 r p)
      = ∑ k : Fin 16, a (ix2 r k) * b (ix2 k p) := by
  show FloatOps.matmul dot_S2048x16_S16x128_S2048x128_1_0_0_1_n_n none a b (constant (F := Ideal) S2048x128 .f32 0x00000000#32) (ix2 r p) = _
  rw [Ideal.matmul_constant_zero_apply, ← Equiv.sum_comp (ValueIdx.contrEquiv1 dot_S2048x16_S16x128_S2048x128_1_0_0_1_n_n 16 rfl rfl).symm]
  refine Finset.sum_congr rfl fun k _ => ?_
  have hk := ValueIdx.contrEquiv1_symm_val dot_S2048x16_S16x128_S2048x128_1_0_0_1_n_n 16 rfl rfl k
  have el : dot_S2048x16_S16x128_S2048x128_1_0_0_1_n_n.lhsIdx (ix2 r p) ((ValueIdx.contrEquiv1 dot_S2048x16_S16x128_S2048x128_1_0_0_1_n_n 16 rfl rfl).symm k) = ix2 r k := funext fun a => Fin.ext (by
    match a with
    | ⟨0, _⟩ => exact lhs_m_0 _ _
    | ⟨1, _⟩ => exact (lhs_m_1 _ _).trans hk)
  have er : dot_S2048x16_S16x128_S2048x128_1_0_0_1_n_n.rhsIdx (ix2 r p) ((ValueIdx.contrEquiv1 dot_S2048x16_S16x128_S2048x128_1_0_0_1_n_n 16 rfl rfl).symm k) = ix2 k p := funext fun a => Fin.ext (by
    match a with
    | ⟨0, _⟩ => exact (rhs_m_0 _ _).trans hk
    | ⟨1, _⟩ => exact rhs_m_1 _ _)
  rw [el, er]

/-! ### The mixtures against the output matrix -/

private theorem lhs_o_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
private theorem lhs_o_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
private theorem rhs_o_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
private theorem rhs_o_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl
/-- Entry (r, p) of the product into a zero accumulator: the sum over the shared axis. -/
private theorem matmul_o (a : FVec Ideal S2048x128 .bf16) (b : FVec Ideal S128x128 .bf16) (r : Fin 2048) (p : Fin 128) :
    matmul dot_S2048x128_S128x128_S2048x128_1_0_0_1_n_n none a b (constant (F := Ideal) S2048x128 .f32 0x00000000#32) (ix2 r p)
      = ∑ k : Fin 128, a (ix2 r k) * b (ix2 k p) := by
  show FloatOps.matmul dot_S2048x128_S128x128_S2048x128_1_0_0_1_n_n none a b (constant (F := Ideal) S2048x128 .f32 0x00000000#32) (ix2 r p) = _
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 r p) ((ValueIdx.contrEquiv1 dot_S2048x128_S128x128_S2048x128_1_0_0_1_n_n 128 rfl rfl).symm k) = ix2 r k := funext fun a => Fin.ext (by
    match a with
    | ⟨0, _⟩ => exact lhs_o_0 _ _
    | ⟨1, _⟩ => exact (lhs_o_1 _ _).trans hk)
  have er : dot_S2048x128_S128x128_S2048x128_1_0_0_1_n_n.rhsIdx (ix2 r p) ((ValueIdx.contrEquiv1 dot_S2048x128_S128x128_S2048x128_1_0_0_1_n_n 128 rfl rfl).symm k) = ix2 k p := funext fun a => Fin.ext (by
    match a with
    | ⟨0, _⟩ => exact (rhs_o_0 _ _).trans hk
    | ⟨1, _⟩ => exact rhs_o_1 _ _)
  rw [el, er]

/-! ### The two lane reductions of a [2048, 16] block, and the column kept and spread back -/

/-- The inserted index of a row's lane k is (r, k). -/
private theorem lift_row (h : S2048x16.Reduces [1] S2048) (r : Fin 2048) (k : Fin 16) :
    h.lift (ix1 r) k = ix2 r k :=
  funext fun a => Fin.ext (by match a with | ⟨0, _⟩ => rfl | ⟨1, _⟩ => rfl)

/-- A row's maximum over its 16 lanes, from the accumulator's value. -/
private theorem rowMax_at (src : FVec Ideal S2048x16 .f32) (h : S2048x16.Reduces [1] S2048)
    (hφ : FTy.f32 = .f32 ∨ FTy.f32 = .bf16) (hacc : (0xFF800000#32 : BitVec FTy.f32.bits) = FKind.maximumf.neutral .f32 hφ) (r : Fin 2048) :
    multiReduction (F := Ideal) .maximumf [1] S2048 src 0xFF800000#32 h hφ hacc (ix1 r)
      = (Finset.univ : Finset (Fin 16)).fold max (Ideal.ofBits .f32 0xFF800000#32) (fun k => src (ix2 r k)) := by
  refine (Ideal.multiReduction_maximumf_single src _ h hφ hacc (ix1 r)).trans ?_
  show (Finset.univ : Finset (Fin 16)).fold max (Ideal.ofBits .f32 0xFF800000#32) (fun k => src (h.lift (ix1 r) k)) = _
  exact congrArg (fun f => (Finset.univ : Finset (Fin 16)).fold max (Ideal.ofBits .f32 0xFF800000#32) f) (funext fun k => congrArg src (lift_row h r k))

/-- A row's sum over its 16 lanes. -/
private theorem rowSum_at (src : FVec Ideal S2048x16 .f32) (h : S2048x16.Reduces [1] S2048)
    (hφ : FTy.f32 = .f32 ∨ FTy.f32 = .bf16) (hacc : (0x00000000#32 : BitVec FTy.f32.bits) = FKind.add.neutral .f32 hφ) (r : Fin 2048) :
    multiReduction (F := Ideal) .add [1] S2048 src 0x00000000#32 h hφ hacc (ix1 r)
      = ∑ k : Fin 16, src (ix2 r k) := by
  refine (Ideal.multiReduction_add_single src _ h hφ hacc (ix1 r)).trans ?_
  show ∑ k : Fin 16, src (h.lift (ix1 r) k) = _
  exact Finset.sum_congr rfl fun k _ => congrArg src (lift_row h r k)

/-- A per-row value made a column and spread over the 16 lanes reads the row's value at every lane. -/
private theorem spread_at (x : FVec Ideal S2048 .f32) (hc : S2048.ShapeCasts S2048x1) (hb : S2048x1.Broadcasts S2048x16)
    (r : Fin 2048) (k : Fin 16) :
    broadcastTo S2048x16 (shapeCast S2048x1 x hc) hb (ix2 r k) = x (ix1 r) := by
  refine (broadcastTo_apply (shapeCast S2048x1 x hc) hb (ix2 r k) (ix2 r (0 : Fin 1)) fun a => ?_).trans ?_
  · match a with
    | ⟨0, _⟩ => show r.val = if (2048 : Nat) = 1 then 0 else r.val; rw [if_neg (by decide)]
    | ⟨1, _⟩ => show 0 = if (1 : Nat) = 1 then 0 else k.val; rw [if_pos rfl]
  · refine shapeCast_apply x hc (ix2 r (0 : Fin 1)) (ix1 r) ?_
    rw [Shape.rowMajor_val_one, Shape.rowMajor_val_two]
    show r.val = r.val * 1 + 0
    omega

/-! ### The body's stages as functions of the score block -/

/-- Each row's peak: the maximum of its 16 scores from minus infinity, once more against minus infinity. -/
private def peakV (s : FVec Ideal S2048x16 .f32) : FVec Ideal S2048 .f32 :=
  maximumf (broadcast S2048 (Scalar.ofBits (F := Ideal) .f32 0xFF800000#32))
    (multiReduction (F := Ideal) .maximumf [1] S2048 s 0xFF800000#32 Facts₀.reduces_S2048x16_S2048 (.inl rfl) rfl)

/-- Each score's exponential distance below its row's peak. -/
private def raisedV (s : FVec Ideal S2048x16 .f32) : FVec Ideal S2048x16 .f32 :=
  exp (subf s (broadcastTo S2048x16 (shapeCast S2048x1 (peakV s) Facts₀.shapeCasts_S2048_S2048x1) Facts₀.broadcasts_S2048x1_S2048x16))

/-- Each exponential over its row's sum of exponentials. -/
private def weightV (s : FVec Ideal S2048x16 .f32) : FVec Ideal S2048x16 .f32 :=
  divf (raisedV s)
    (broadcastTo S2048x16
      (shapeCast S2048x1
        (multiReduction (F := Ideal) .add [1] S2048 (raisedV s) 0x00000000#32 Facts₀.reduces_S2048x16_S2048 (.inl rfl) rfl)
        Facts₀.shapeCasts_S2048_S2048x1)
      Facts₀.broadcasts_S2048x1_S2048x16)

private theorem peakV_at (s : FVec Ideal S2048x16 .f32) (r : Fin 2048) :
    peakV s (ix1 r) = peak (fun k => s (ix2 r k)) := by
  show max (Ideal.ofBits .f32 0xFF800000#32) (multiReduction (F := Ideal) .maximumf [1] S2048 s 0xFF800000#32 _ _ _ (ix1 r)) = _
  exact congrArg (max (Ideal.ofBits .f32 0xFF800000#32)) (rowMax_at s _ _ _ r)

private theorem raisedV_at (s : FVec Ideal S2048x16 .f32) (r : Fin 2048) (k : Fin 16) :
    raisedV s (ix2 r k) = raised (fun k => s (ix2 r k)) k := by
  show Ideal.exp (s (ix2 r k) - broadcastTo S2048x16 (shapeCast S2048x1 (peakV s) _) _ (ix2 r k)) = Ideal.exp (s (ix2 r k) - peak (fun k => s (ix2 r k)))
  exact congrArg (fun m => Ideal.exp (s (ix2 r k) - m)) ((spread_at (peakV s) _ _ r k).trans (peakV_at s r))

private theorem weightV_at (s : FVec Ideal S2048x16 .f32) (r : Fin 2048) (k : Fin 16) :
    weightV s (ix2 r k) = weight (fun k => s (ix2 r k)) k := by
  show Ideal.div (raisedV s (ix2 r k)) (broadcastTo S2048x16 (shapeCast S2048x1 (multiReduction (F := Ideal) .add [1] S2048 (raisedV s) 0x00000000#32 _ _ _) _) _ (ix2 r k))
    = Ideal.div (raised (fun k => s (ix2 r k)) k) (∑ j : Fin 16, raised (fun k => s (ix2 r k)) j)
  have hd : broadcastTo S2048x16 (shapeCast S2048x1 (multiReduction (F := Ideal) .add [1] S2048 (raisedV s) 0x00000000#32
        Facts₀.reduces_S2048x16_S2048 (.inl rfl) rfl) Facts₀.shapeCasts_S2048_S2048x1) Facts₀.broadcasts_S2048x1_S2048x16 (ix2 r k)
      = ∑ j : Fin 16, raised (fun k => s (ix2 r k)) j :=
    (spread_at _ _ _ r k).trans ((rowSum_at (raisedV s) _ _ _ r).trans (Finset.sum_congr rfl fun j _ => raisedV_at s r j))
  rw [hd, raisedV_at]

/-! ### The score block, and the two stored values -/

/-- The block of scaled scores the body computes from its three loads. -/
private def scoreV (v0 : FVec Ideal S2048x512 .f32) (v3 : FVec Ideal S512x128 .f32) (v8 : FVec Ideal S128x16 .f32) :
    FVec Ideal S2048x16 .f32 :=
  mulf
    (matmul dot_S2048x128_S128x16_S2048x16_1_0_0_1_n_n none
      (truncf .bf16
        (matmul dot_S2048x512_S512x128_S2048x128_1_0_0_1_n_n none
          (truncf .bf16 (shapeCast S2048x512 v0 Facts₀.shapeCasts_S2048x512_S2048x512) Facts₀.bitsLt_bf16_f32)
          (truncf .bf16 (shapeCast S512x128 v3 Facts₀.shapeCasts_S512x128_S512x128) Facts₀.bitsLt_bf16_f32)
          (constant (F := Ideal) S2048x128 .f32 0x00000000#32))
        Facts₀.bitsLt_bf16_f32)
      (truncf .bf16 (shapeCast S128x16 v8 Facts₀.shapeCasts_S128x16_S128x16) Facts₀.bitsLt_bf16_f32)
      (constant (F := Ideal) S2048x16 .f32 0x00000000#32))
    (broadcast S2048x16 (Scalar.ofBits (F := Ideal) .f32 0x3DB504F3#32))

/-- The first stored value is the softmax stage of the score block. -/
private theorem pay1_eq (v0 : FVec Ideal S2048x512 .f32) (v3 : FVec Ideal S512x128 .f32) (v8 : FVec Ideal S128x16 .f32) :
    k0_pay1 (F := Ideal) v0 v3 v8 = weightV (scoreV v0 v3 v8) := rfl

private theorem scoreV_at (v0 : FVec Ideal S2048x512 .f32) (v3 : FVec Ideal S512x128 .f32) (v8 : FVec Ideal S128x16 .f32)
    (r : Fin 2048) (k : Fin 16) :
    scoreV v0 v3 v8 (ix2 r k)
      = score (query (fun d => v0 (ix2 r d)) (fun p d => v3 (ix2 d p))) (fun k p => v8 (ix2 p k)) k := by
  unfold scoreV
  rw [shapeCast_self, shapeCast_self, shapeCast_self]
  show matmul dot_S2048x128_S128x16_S2048x16_1_0_0_1_n_n none _ _ (constant (F := Ideal) S2048x16 .f32 0x00000000#32) (ix2 r k) * scale = _
  refine congrArg (· * scale) ?_
  refine (matmul_s _ _ r k).trans (Finset.sum_congr rfl fun p _ => ?_)
  show matmul dot_S2048x512_S512x128_S2048x128_1_0_0_1_n_n none _ _ (constant (F := Ideal) S2048x128 .f32 0x00000000#32) (ix2 r p) * v8 (ix2 p k) = _
  exact congrArg (· * v8 (ix2 p k)) (matmul_q _ _ r p)

/-- The stored weights at row r, column k of a block. -/
theorem weights_at (v0 : FVec Ideal S2048x512 .f32) (v3 : FVec Ideal S512x128 .f32) (v8 : FVec Ideal S128x16 .f32)
    (r : Fin 2048) (k : Fin 16) :
    k0_pay1 (F := Ideal) v0 v3 v8 (ix2 r k)
      = rowWeights (fun d => v0 (ix2 r d)) (fun p d => v3 (ix2 d p)) (fun k p => v8 (ix2 p k)) k := by
  rw [pay1_eq]
  refine (weightV_at (scoreV v0 v3 v8) r k).trans ?_
  exact congrArg (fun s => weight s k) (funext fun j => scoreV_at v0 v3 v8 r j)

/-- The stored output at row r, column p of a block. -/
theorem output_at (v0 : FVec Ideal S2048x512 .f32) (v3 : FVec Ideal S512x128 .f32) (v8 : FVec Ideal S128x16 .f32)
    (v27 : FVec Ideal S16x128 .f32) (v31 : FVec Ideal S128x128 .f32) (r : Fin 2048) (p : Fin 128) :
    k0_pay2 (F := Ideal) v0 v3 v8 v27 v31 (ix2 r p)
      = rowOutput (fun d => v0 (ix2 r d)) (fun p d => v3 (ix2 d p)) (fun k p => v8 (ix2 p k))
          (fun k d => v27 (ix2 k d)) (fun p d => v31 (ix2 d p)) p := by
  unfold k0_pay2
  rw [shapeCast_self]
  show matmul dot_S2048x128_S128x128_S2048x128_1_0_0_1_n_n none _ _ (constant (F := Ideal) S2048x128 .f32 0x00000000#32) (ix2 r p) = _
  refine (matmul_o _ _ r p).trans ?_
  unfold rowOutput project
  refine Finset.sum_congr rfl fun d _ => ?_
  show matmul dot_S2048x16_S16x128_S2048x128_1_0_0_1_n_n none _ _ (constant (F := Ideal) S2048x128 .f32 0x00000000#32) (ix2 r d) * v31 (ix2 d p) = _
  refine congrArg (· * v31 (ix2 d p)) ?_
  refine (matmul_m _ _ r d).trans ?_
  unfold mixture
  refine Finset.sum_congr rfl fun k _ => ?_
  show k0_pay1 (F := Ideal) v0 v3 v8 (ix2 r k) * v27 (ix2 k d) = _
  exact congrArg (· * v27 (ix2 k d)) (weights_at v0 v3 v8 r k)

end Cert.SoftCodebook.Body

end
-- ==== Proof.Blocks.lean ====
/-
  From blocks to arrays. The kernel walks the 131072 rows of the flattened input in 64 blocks of 2048
  rows; at block t it reads rows 2048·t … 2048·t + 2047 of the input together with the four parameter
  matrices whole, and writes the same rows of the two result arrays. Since a row of results depends only on
  the same row of the input, what block t writes is block t of ONE function of the arrays the kernel reads,
  and the 64 blocks cover every row: after the run each result array IS that function.
-/
import proofs.«176541_j85693187490397_1_alg».proof.Proof.Gen.KernelIdeal.Frame
import proofs.«176541_j85693187490397_1_alg».proof.Proof.Payload
import proofs.«176541_j85693187490397_1_alg».proof.Proof.Spec
import Idealize.ShloMosaic.Lib.Pipeline.Value
import Idealize.ShloMosaic.Lib.ValueIdx

set_option maxRecDepth 16384

noncomputable section

namespace Cert.SoftCodebook.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SoftCodebook

variable (m : (ℓ : Loc nD τ sig) → Buf (Elt Ideal) ℓ)

/-! ## The arrays the kernel's windows read, as the region finds them -/

/-- The input flattened to 131072 rows of 512. -/
abbrev rows (c : Dev nD) : S131072x512.Idx → EReal := V m c main_v0
/-- The query matrix, transposed. -/
abbrev queryT (c : Dev nD) : S512x128.Idx → EReal := V m c main_v3
/-- The keys, transposed. -/
abbrev keysT (c : Dev nD) : S128x16.Idx → EReal := V m c main_v2
/-- The codebook. -/
abbrev book (c : Dev nD) : S16x128.Idx → EReal := V m c main_arg2
/-- The output matrix, transposed. -/
abbrev outT (c : Dev nD) : S128x128.Idx → EReal := V m c main_v4

/-- Row R of the weights, over the flattened input. -/
def flatWeights (c : Dev nD) : S131072x16.Idx → EReal := fun j =>
  rowWeights (fun d => rows m c (ix2 (⟨(j 0).val, (j 0).isLt⟩ : Fin 131072) d)) (fun p d => queryT m c (ix2 d p))
    (fun k p => keysT m c (ix2 p k)) ⟨(j 1).val, (j 1).isLt⟩

/-- Row R of the outputs, over the flattened input. -/
def flatOutput (c : Dev nD) : S131072x128.Idx → EReal := fun j =>
  rowOutput (fun d => rows m c (ix2 (⟨(j 0).val, (j 0).isLt⟩ : Fin 131072) d)) (fun p d => queryT m c (ix2 d p))
    (fun k p => keysT m c (ix2 p k)) (fun k d => book m c (ix2 k d)) (fun p d => outT m c (ix2 d p)) ⟨(j 1).val, (j 1).isLt⟩

/-! ## Where a block sits -/

theorem zeros : (![0, 0] : Fin 2 → Nat) = fun _ => 0 := funext fun a => by fin_cases a <;> rfl

/-- The grid has 64 points. -/
theorem point_lt (t : Fin cfg0.N) : t.val < 64 := Nat.lt_of_lt_of_eq t.isLt N_0

/-- The row of the arrays that row r of block t is. -/
def rowOf (t : Fin cfg0.N) (r : Fin 2048) : Fin 131072 := ⟨2048 * t.val + r.val, by have := point_lt t; have := r.isLt; omega⟩

/-- The block index maps, decided once over the grid: the input and the two results move down one block of rows per
    point and never sideways; the four parameter matrices stay where they are. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks, read at an entry -/

theorem rows_block (c : Dev nD) (t : Fin cfg0.N) (r : Fin 2048) (d : Fin 512) :
    iblk m c 0 t (ix2 r d) = rows m c (ix2 (rowOf t r) d) := by
  show rows m c (((cfg0.win 0).blk t).view.emb (ix2 r d)) = rows m c (ix2 (rowOf t r) d)
  obtain ⟨e0, e1, -⟩ := block_index t
  refine congrArg (rows m c) (funext fun a => Fin.ext ?_)
  match a with
  | ⟨0, _⟩ => show win0_0.index t (0 : Fin 2) * 2048 + 1 * r.val = 2048 * t.val + r.val; omega
  | ⟨1, _⟩ => show win0_0.index t (1 : Fin 2) * 512 + 1 * d.val = d.val; omega

theorem queryT_block (c : Dev nD) (t : Fin cfg0.N) (d : Fin 512) (p : Fin 128) :
    iblk m c 1 t (ix2 d p) = queryT m c (ix2 d p) := by
  show queryT m c (((cfg0.win 1).blk t).view.emb (ix2 d p)) = queryT m c (ix2 d p)
  obtain ⟨-, -, e0, e1, -⟩ := block_index t
  refine congrArg (queryT m c) (funext fun a => Fin.ext ?_)
  match a with
  | ⟨0, _⟩ => show win0_1.index t (0 : Fin 2) * 512 + 1 * d.val = d.val; omega
  | ⟨1, _⟩ => show win0_1.index t (1 : Fin 2) * 128 + 1 * p.val = p.val; omega

theorem keysT_block (c : Dev nD) (t : Fin cfg0.N) (p : Fin 128) (k : Fin 16) :
    iblk m c 2 t (ix2 p k) = keysT m c (ix2 p k) := by
  show keysT m c (((cfg0.win 2).blk t).view.emb (ix2 p k)) = keysT m c (ix2 p k)
  obtain ⟨-, -, -, -, e0, e1, -⟩ := block_index t
  refine congrArg (keysT m c) (funext fun a => Fin.ext ?_)
  match a with
  | ⟨0, _⟩ => show win0_2.index t (0 : Fin 2) * 128 + 1 * p.val = p.val; omega
  | ⟨1, _⟩ => show win0_2.index t (1 : Fin 2) * 16 + 1 * k.val = k.val; omega

theorem book_block (c : Dev nD) (t : Fin cfg0.N) (k : Fin 16) (d : Fin 128) :
    iblk m c 3 t (ix2 k d) = book m c (ix2 k d) := by
  show book m c (((cfg0.win 3).blk t).view.emb (ix2 k d)) = book m c (ix2 k d)
  obtain ⟨-, -, -, -, -, -, e0, e1, -⟩ := block_index t
  refine congrArg (book m c) (funext fun a => Fin.ext ?_)
  match a with
  | ⟨0, _⟩ => show win0_3.index t (0 : Fin 2) * 16 + 1 * k.val = k.val; omega
  | ⟨1, _⟩ => show win0_3.index t (1 : Fin 2) * 128 + 1 * d.val = d.val; omega

theorem outT_block (c : Dev nD) (t : Fin cfg0.N) (d : Fin 128) (p : Fin 128) :
    iblk m c 4 t (ix2 d p) = outT m c (ix2 d p) := by
  show outT m c (((cfg0.win 4).blk t).view.emb (ix2 d p)) = outT m c (ix2 d p)
  obtain ⟨-, -, -, -, -, -, -, -, e0, e1, -⟩ := block_index t
  refine congrArg (outT m c) (funext fun a => Fin.ext ?_)
  match a with
  | ⟨0, _⟩ => show win0_4.index t (0 : Fin 2) * 128 + 1 * d.val = d.val; omega
  | ⟨1, _⟩ => show win0_4.index t (1 : Fin 2) * 128 + 1 * p.val = p.val; omega

/-! ## The result blocks: where entry (r, k) of block t lands -/

theorem weights_spot (t : Fin cfg0.N) (r : Fin 2048) (k : Fin 16) :
    ((cfg0.win 6).blk t).view.emb (ix2 r k) = (ix2 (rowOf t r) k : S131072x16.Idx) := by
  obtain ⟨-, -, -, -, -, -, -, -, -, -, -, -, e0, e1⟩ := block_index t
  funext a; apply Fin.ext
  match a with
  | ⟨0, _⟩ => show win0_6.index t (0 : Fin 2) * 2048 + 1 * r.val = 2048 * t.val + r.val; omega
  | ⟨1, _⟩ => show win0_6.index t (1 : Fin 2) * 16 + 1 * k.val = k.val; omega

theorem output_spot (t : Fin cfg0.N) (r : Fin 2048) (p : Fin 128) :
    ((cfg0.win 5).blk t).view.emb (ix2 r p) = (ix2 (rowOf t r) p : S131072x128.Idx) := by
  obtain ⟨-, -, -, -, -, -, -, -, -, -, e0, e1, -⟩ := block_index t
  funext a; apply Fin.ext
  match a with
  | ⟨0, _⟩ => show win0_5.index t (0 : Fin 2) * 2048 + 1 * r.val = 2048 * t.val + r.val; omega
  | ⟨1, _⟩ => show win0_5.index t (1 : Fin 2) * 128 + 1 * p.val = p.val; omega

/-! ## What point t writes back -/

/-- Point t writes back block t of the weights. -/
theorem weights_flushed (c : Dev nD) (t : Fin cfg0.N) :
    (dats m 0 c).flushed 6 t = ((cfg0.win 6).blk t).view.read (Elt Ideal) (flatWeights m c) := by
  show (cfg0.win 6).cut (grid0.coords t) ((dats m 0 c).after 6 t) = _
  rw [after0_6]
  unfold out0_6
  rw [View.canon_unit_zero zeros]
  simp only [View.ld_unit_zero (S := S2048x512) zeros, View.ld_unit_zero (S := S512x128) zeros, View.ld_unit_zero (S := S128x16) zeros]
  funext j
  have hj : j = (ix2 (⟨(j 0).val, (j 0).isLt⟩ : Fin 2048) (⟨(j 1).val, (j 1).isLt⟩ : Fin 16) : S2048x16.Idx) :=
    funext fun a => Fin.ext (by match a with | ⟨0, _⟩ => rfl | ⟨1, _⟩ => rfl)
  generalize (⟨(j 0).val, (j 0).isLt⟩ : Fin 2048) = r at hj
  generalize (⟨(j 1).val, (j 1).isLt⟩ : Fin 16) = k at hj
  subst hj
  show k0_pay1 (F := Ideal) (iblk m c 0 t) (iblk m c 1 t) (iblk m c 2 t) (ix2 r k)
    = flatWeights m c (((cfg0.win 6).blk t).view.emb (ix2 r k))
  rw [weights_spot t r k]
  refine (Body.weights_at (iblk m c 0 t) (iblk m c 1 t) (iblk m c 2 t) r k).trans ?_
  have e0 : (fun d => iblk m c 0 t (ix2 r d)) = fun d => rows m c (ix2 (rowOf t r) d) := funext fun d => rows_block m c t r d
  have e1 : (fun (p : Fin 128) (d : Fin 512) => iblk m c 1 t (ix2 d p)) = fun p d => queryT m c (ix2 d p) :=
    funext fun p => funext fun d => queryT_block m c t d p
  have e2 : (fun (k : Fin 16) (p : Fin 128) => iblk m c 2 t (ix2 p k)) = fun k p => keysT m c (ix2 p k) :=
    funext fun k => funext fun p => keysT_block m c t p k
  rw [e0, e1, e2]
  rfl

/-- Point t writes back block t of the outputs. -/
theorem output_flushed (c : Dev nD) (t : Fin cfg0.N) :
    (dats m 0 c).flushed 5 t = ((cfg0.win 5).blk t).view.read (Elt Ideal) (flatOutput m c) := by
  show (cfg0.win 5).cut (grid0.coords t) ((dats m 0 c).after 5 t) = _
  rw [after0_5]
  unfold out0_5
  rw [View.canon_unit_zero zeros]
  simp only [View.ld_unit_zero (S := S2048x512) zeros, View.ld_unit_zero (S := S512x128) zeros, View.ld_unit_zero (S := S128x16) zeros,
    View.ld_unit_zero (S := S16x128) zeros, View.ld_unit_zero (S := S128x128) zeros]
  funext j
  have hj : j = (ix2 (⟨(j 0).val, (j 0).isLt⟩ : Fin 2048) (⟨(j 1).val, (j 1).isLt⟩ : Fin 128) : S2048x128.Idx) :=
    funext fun a => Fin.ext (by match a with | ⟨0, _⟩ => rfl | ⟨1, _⟩ => rfl)
  generalize (⟨(j 0).val, (j 0).isLt⟩ : Fin 2048) = r at hj
  generalize (⟨(j 1).val, (j 1).isLt⟩ : Fin 128) = p at hj
  subst hj
  show k0_pay2 (F := Ideal) (iblk m c 0 t) (iblk m c 1 t) (iblk m c 2 t) (iblk m c 3 t) (iblk m c 4 t) (ix2 r p)
    = flatOutput m c (((cfg0.win 5).blk t).view.emb (ix2 r p))
  rw [output_spot t r p]
  refine (Body.output_at (iblk m c 0 t) (iblk m c 1 t) (iblk m c 2 t) (iblk m c 3 t) (iblk m c 4 t) r p).trans ?_
  have e0 : (fun d => iblk m c 0 t (ix2 r d)) = fun d => rows m c (ix2 (rowOf t r) d) := funext fun d => rows_block m c t r d
  have e1 : (fun (p : Fin 128) (d : Fin 512) => iblk m c 1 t (ix2 d p)) = fun p d => queryT m c (ix2 d p) :=
    funext fun p => funext fun d => queryT_block m c t d p
  have e2 : (fun (k : Fin 16) (p : Fin 128) => iblk m c 2 t (ix2 p k)) = fun k p => keysT m c (ix2 p k) :=
    funext fun k => funext fun p => keysT_block m c t p k
  have e3 : (fun (k : Fin 16) (d : Fin 128) => iblk m c 3 t (ix2 k d)) = fun k d => book m c (ix2 k d) :=
    funext fun k => funext fun d => book_block m c t k d
  have e4 : (fun (p : Fin 128) (d : Fin 128) => iblk m c 4 t (ix2 d p)) = fun p d => outT m c (ix2 d p) :=
    funext fun p => funext fun d => outT_block m c t d p
  rw [e0, e1, e2, e3, e4]
  rfl

/-! ## Every row is in some point's block -/

/-- An entry of the weights array is in point t's block when its row is among the block's 2048 and its column among the 16. -/
theorem mem_weights_block (t : Fin cfg0.N) (i : S131072x16.Idx) :
    i ∈ ((cfg0.win 6).blk t).view.set ↔ ∀ a : Fin 2, win0_6.index t a * S2048x16.size a ≤ (i a).val ∧ (i a).val < win0_6.index t a * S2048x16.size a + S2048x16.size a := by
  show i ∈ ((View.whole main_v5_1).slice (win0_6.rect t)).set ↔ _
  rw [View.set_slice_whole, Rect.mem_set_unit]
  exact Iff.rfl

theorem mem_output_block (t : Fin cfg0.N) (i : S131072x128.Idx) :
    i ∈ ((cfg0.win 5).blk t).view.set ↔ ∀ a : Fin 2, win0_5.index t a * S2048x128.size a ≤ (i a).val ∧ (i a).val < win0_5.index t a * S2048x128.size a + S2048x128.size a := by
  show i ∈ ((View.whole main_v5_0).slice (win0_5.rect t)).set ↔ _
  rw [View.set_slice_whole, Rect.mem_set_unit]
  exact Iff.rfl

/-- The point whose block holds row R: R / 2048. -/
def pointOf (R : Nat) (h : R < 131072) : Fin cfg0.N := ⟨R / 2048, by rw [show cfg0.N = 64 from N_0]; omega⟩

theorem weights_cover (i : S131072x16.Idx) :
    ∃ t : Fin cfg0.N, (cfg0.win 6).flush t = true ∧ i ∈ ((cfg0.win 6).blk t).view.set := by
  have h0 : (i 0).val < 131072 := (i 0).isLt
  have h1 : (i 1).val < 16 := (i 1).isLt
  refine ⟨pointOf (i 0).val h0, flush0_6 _, ?_⟩
  rw [mem_weights_block]
  obtain ⟨-, -, -, -, -, -, -, -, -, -, -, -, e0, e1⟩ := block_index (pointOf (i 0).val h0)
  have ev : (pointOf (i 0).val h0).val = (i 0).val / 2048 := rfl
  intro a
  match a with
  | ⟨0, _⟩ =>
    show win0_6.index (pointOf (i 0).val h0) (0 : Fin 2) * 2048 ≤ (i 0).val ∧ (i 0).val < win0_6.index (pointOf (i 0).val h0) (0 : Fin 2) * 2048 + 2048
    omega
  | ⟨1, _⟩ =>
    show win0_6.index (pointOf (i 0).val h0) (1 : Fin 2) * 16 ≤ (i 1).val ∧ (i 1).val < win0_6.index (pointOf (i 0).val h0) (1 : Fin 2) * 16 + 16
    omega

theorem output_cover (i : S131072x128.Idx) :
    ∃ t : Fin cfg0.N, (cfg0.win 5).flush t = true ∧ i ∈ ((cfg0.win 5).blk t).view.set := by
  have h0 : (i 0).val < 131072 := (i 0).isLt
  have h1 : (i 1).val < 128 := (i 1).isLt
  refine ⟨pointOf (i 0).val h0, flush0_5 _, ?_⟩
  rw [mem_output_block]
  obtain ⟨-, -, -, -, -, -, -, -, -, -, e0, e1, -⟩ := block_index (pointOf (i 0).val h0)
  have ev : (pointOf (i 0).val h0).val = (i 0).val / 2048 := rfl
  intro a
  match a with
  | ⟨0, _⟩ =>
    show win0_5.index (pointOf (i 0).val h0) (0 : Fin 2) * 2048 ≤ (i 0).val ∧ (i 0).val < win0_5.index (pointOf (i 0).val h0) (0 : Fin 2) * 2048 + 2048
    omega
  | ⟨1, _⟩ =>
    show win0_5.index (pointOf (i 0).val h0) (1 : Fin 2) * 128 ≤ (i 1).val ∧ (i 1).val < win0_5.index (pointOf (i 0).val h0) (1 : Fin 2) * 128 + 128
    omega

/-! ## The two result arrays after the run -/

theorem weights_final (c : Dev nD) : (dats m 0 c).arrAt 6 cfg0.N = flatWeights m c :=
  (dats m 0 c).arrAt_eq_of_cover 6 (flatWeights m c) (fun t _ => weights_flushed m c t) weights_cover

theorem output_final (c : Dev nD) : (dats m 0 c).arrAt 5 cfg0.N = flatOutput m c :=
  (dats m 0 c).arrAt_eq_of_cover 5 (flatOutput m c) (fun t _ => output_flushed m c t) output_cover

end Cert.SoftCodebook.Blocks

end
-- ==== Proof.Entry.lean ====
/-
  What the kernel's region finds in the arrays its windows read, entry by entry, in terms of the arguments:
  the input flattened to rows, the query and output matrices transposed, the keys computed and transposed.
-/
import proofs.«176541_j85693187490397_1_alg».proof.Proof.Gen.KernelIdeal.Frame
import proofs.«176541_j85693187490397_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.SoftCodebook.Entry

open Idealize.ShloMosaic Idealize.ShloMosaic.TcCoe Idealize.ShloMosaic.ValueIdx Idealize.SL.Sem Cert.KernelIdeal Cert.KernelIdeal.Gen Cert.SoftCodebook

variable (m : (ℓ : Loc nD τ sig) → Buf (Elt Ideal) ℓ)

/-! ## Each array as one operation's value -/

/-- The flattened input is the input recast, row-major, to 131072 rows of 512. -/
private theorem flat_eq (c : Dev nD) :
    (V m c main_v0 : S131072x512.Idx → EReal)
      = shapeCast S131072x512 (m ((c : Thread nD τ).loc main_arg0) : S16x8192x512.Idx → EReal) shapeCasts_S16x8192x512_S131072x512 := by
  show StableHlo.after hostOps0 (fun b => m (c, b)) (Proc.devRef .tc main_v0) = _
  after_results
  rfl

/-- The query matrix as the region finds it is the argument with its two axes exchanged. -/
private theorem queryW_eq (c : Dev nD) :
    (V m c main_v3 : S512x128.Idx → EReal)
      = transpose S512x128 [1, 0] (m ((c : Thread nD τ).loc main_arg3) : S128x512.Idx → EReal) transposes_S128x512_S512x128_1_0 := by
  show StableHlo.after hostOps0 (fun b => m (c, b)) (Proc.devRef .tc main_v3) = _
  after_results

/-- The output matrix likewise. -/
private theorem outW_eq (c : Dev nD) :
    (V m c main_v4 : S128x128.Idx → EReal)
      = transpose S128x128 [1, 0] (m ((c : Thread nD τ).loc main_arg5) : S128x128.Idx → EReal) transposes_S128x128_S128x128_1_0 := by
  show StableHlo.after hostOps0 (fun b => m (c, b)) (Proc.devRef .tc main_v4) = _
  after_results

/-- The keys as the region finds them: the product of the codebook with the key matrix (contracted on the
    second axis of each), with its two axes exchanged. -/
private theorem keys_eq (c : Dev nD) :
    (V m c main_v2 : S128x16.Idx → EReal)
      = transpose S128x16 [1, 0]
          (Host.dotGeneral (F := Ideal) (φ₁ := .f32) (φ₂ := .f32) dot_S16x128_S128x128_S16x128_1_1_0_0_n_n none
            (m ((c : Thread nD τ).loc main_arg2) : FVec Ideal S16x128 .f32) (m ((c : Thread nD τ).loc main_arg4) : FVec Ideal S128x128 .f32))
          transposes_S16x128_S128x16_1_0 := by
  show StableHlo.after hostOps0 (fun b => m (c, b)) (Proc.devRef .tc main_v2) = _
  after_results

/-! ## The host's product of the codebook with the key matrix, entry by entry -/

/-- The left operand is read at the result's row, -/
private theorem left_row (i : S16x128.Idx) (q : Cert.KernelIdeal.dot_S16x128_S128x128_S16x128_1_1_0_0_n_n.contr.Idx) :
    (Cert.KernelIdeal.dot_S16x128_S128x128_S16x128_1_1_0_0_n_n.lhsIdx i q 0).val = (i 0).val := by
  unfold DotDims.lhsIdx
  rw [dif_neg (show ¬(0 : Fin S16x128.rank) ∈ Cert.KernelIdeal.dot_S16x128_S128x128_S16x128_1_1_0_0_n_n.lhsBatch by decide),
    dif_pos (show (0 : Fin S16x128.rank) ∈ Cert.KernelIdeal.dot_S16x128_S128x128_S16x128_1_1_0_0_n_n.lhsNonContracting by decide)]
  rfl
/-- and at the summation index; -/
private theorem left_col (i : S16x128.Idx) (q : Cert.KernelIdeal.dot_S16x128_S128x128_S16x128_1_1_0_0_n_n.contr.Idx) :
    (Cert.KernelIdeal.dot_S16x128_S128x128_S16x128_1_1_0_0_n_n.lhsIdx i q 1).val = (q ⟨0, by decide⟩).val :=
  Cert.KernelIdeal.dot_S16x128_S128x128_S16x128_1_1_0_0_n_n.lhsIdx_val_of_single rfl i q
/-- the right operand at the result's column, as ITS row, -/
private theorem right_row (i : S16x128.Idx) (q : Cert.KernelIdeal.dot_S16x128_S128x128_S16x128_1_1_0_0_n_n.contr.Idx) :
    (Cert.KernelIdeal.dot_S16x128_S128x128_S16x128_1_1_0_0_n_n.rhsIdx i q 0).val = (i 1).val := by
  unfold DotDims.rhsIdx
  rw [dif_neg (show ¬(0 : Fin S128x128.rank) ∈ Cert.KernelIdeal.dot_S16x128_S128x128_S16x128_1_1_0_0_n_n.rhsBatch by decide),
    dif_pos (show (0 : Fin S128x128.rank) ∈ Cert.KernelIdeal.dot_S16x128_S128x128_S16x128_1_1_0_0_n_n.rhsNonContracting by decide)]
  rfl
/-- and at the summation index. -/
private theorem right_col (i : S16x128.Idx) (q : Cert.KernelIdeal.dot_S16x128_S128x128_S16x128_1_1_0_0_n_n.contr.Idx) :
    (Cert.KernelIdeal.dot_S16x128_S128x128_S16x128_1_1_0_0_n_n.rhsIdx i q 1).val = (q ⟨0, by decide⟩).val :=
  Cert.KernelIdeal.dot_S16x128_S128x128_S16x128_1_1_0_0_n_n.rhsIdx_val_of_single rfl i q

/-- Entry (k, p) of the product is key k at p: codebook row k against row p of the key matrix. -/
private theorem product_at (cb : FVec Ideal S16x128 .f32) (wk : FVec Ideal S128x128 .f32) (k : Fin 16) (p : Fin 128) :
    Host.dotGeneral (F := Ideal) Cert.KernelIdeal.dot_S16x128_S128x128_S16x128_1_1_0_0_n_n none cb wk (ix2 k p) = key (mat cb) (mat wk) k p := by
  show _ = ∑ d : Fin 128, cb (ix2 k d) * wk (ix2 p d)
  simp only [Host.dotGeneral]
  rw [Ideal.dotGeneral_apply, ← Equiv.sum_comp (ValueIdx.contrEquiv1 Cert.KernelIdeal.dot_S16x128_S128x128_S16x128_1_1_0_0_n_n 128 rfl rfl).symm]
  refine Finset.sum_congr rfl fun d _ => ?_
  have hd := ValueIdx.contrEquiv1_symm_val Cert.KernelIdeal.dot_S16x128_S128x128_S16x128_1_1_0_0_n_n 128 rfl rfl d
  have el : Cert.KernelIdeal.dot_S16x128_S128x128_S16x128_1_1_0_0_n_n.lhsIdx (ix2 k p) ((ValueIdx.contrEquiv1 Cert.KernelIdeal.dot_S16x128_S128x128_S16x128_1_1_0_0_n_n 128 rfl rfl).symm d) = ix2 k d :=
    funext fun a => Fin.ext (by
      match a with
      | ⟨0, _⟩ => exact left_row _ _
      | ⟨1, _⟩ => exact (left_col _ _).trans hd)
  have er : Cert.KernelIdeal.dot_S16x128_S128x128_S16x128_1_1_0_0_n_n.rhsIdx (ix2 k p) ((ValueIdx.contrEquiv1 Cert.KernelIdeal.dot_S16x128_S128x128_S16x128_1_1_0_0_n_n 128 rfl rfl).symm d) = ix2 p d :=
    funext fun a => Fin.ext (by
      match a with
      | ⟨0, _⟩ => exact right_row _ _
      | ⟨1, _⟩ => exact (right_col _ _).trans hd)
  rw [el, er]

/-! ## The four arrays, entry by entry -/

/-- Row 8192·b + n of the flattened input is row (b, n) of the input. -/
theorem carry_at (c : Dev nD) (b : Fin 16) (n : Fin 8192) (d : Fin 512) :
    (V m c main_v0 : S131072x512.Idx → EReal) (ix2 (⟨8192 * b.val + n.val, by omega⟩ : Fin 131072) d)
      = (m ((c : Thread nD τ).loc main_arg0) : S16x8192x512.Idx → EReal) (ix3 b n d) := by
  refine (congrFun (flat_eq m c) _).trans ?_
  -- both indices sit at row-major position (8192·b + n)·512 + d
  refine shapeCast_apply _ shapeCasts_S16x8192x512_S131072x512 _ (ix3 b n d) ?_
  rw [Shape.rowMajor_val_three, Shape.rowMajor_val_two]
  show (b.val * 8192 + n.val) * 512 + d.val = (8192 * b.val + n.val) * 512 + d.val
  omega

/-- The transposed query matrix. -/
theorem queryW_at (c : Dev nD) (d : Fin 512) (p : Fin 128) :
    (V m c main_v3 : S512x128.Idx → EReal) (ix2 d p) = (m ((c : Thread nD τ).loc main_arg3) : S128x512.Idx → EReal) (ix2 p d) := by
  refine (congrFun (queryW_eq m c) (ix2 d p)).trans ?_
  exact transpose_apply [1, 0] _ transposes_S128x512_S512x128_1_0 (ix2 d p) (ix2 p d)
    (fun a => match a with | ⟨0, _⟩ => rfl | ⟨1, _⟩ => rfl)

/-- The transposed keys. -/
theorem keys_at (c : Dev nD) (p : Fin 128) (k : Fin 16) :
    (V m c main_v2 : S128x16.Idx → EReal) (ix2 p k)
      = key (mat (m ((c : Thread nD τ).loc main_arg2) : S16x128.Idx → EReal)) (mat (m ((c : Thread nD τ).loc main_arg4) : S128x128.Idx → EReal)) k p := by
  refine (congrFun (keys_eq m c) (ix2 p k)).trans ?_
  refine (transpose_apply [1, 0] _ transposes_S16x128_S128x16_1_0 (ix2 p k) (ix2 k p)
    (fun a => match a with | ⟨0, _⟩ => rfl | ⟨1, _⟩ => rfl)).trans ?_
  exact product_at _ _ k p

/-- The transposed output matrix. -/
theorem outW_at (c : Dev nD) (d : Fin 128) (p : Fin 128) :
    (V m c main_v4 : S128x128.Idx → EReal) (ix2 d p) = (m ((c : Thread nD τ).loc main_arg5) : S128x128.Idx → EReal) (ix2 p d) := by
  refine (congrFun (outW_eq m c) (ix2 d p)).trans ?_
  exact transpose_apply [1, 0] _ transposes_S128x128_S128x128_1_0 (ix2 d p) (ix2 p d)
    (fun a => match a with | ⟨0, _⟩ => rfl | ⟨1, _⟩ => rfl)

end Cert.SoftCodebook.Entry

end
-- ==== Proof.KernelRun.lean ====
/-
  The kernel's run, read: after the region the two flat result arrays are folded back to [16, 8192, ·], which puts
  row 8192·b + n at position (b, n); with the arrays the region read spelt out in terms of the arguments, the two
  results are the specification's arrays.
-/
import proofs.«176541_j85693187490397_1_alg».proof.Proof.Blocks
import proofs.«176541_j85693187490397_1_alg».proof.Proof.Entry
import Idealize.ShloMosaic.Lib.StableHlo.Run

set_option maxRecDepth 16384

noncomputable section

namespace Cert.SoftCodebook.KernelRun

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.SoftCodebook Cert.SoftCodebook.Blocks

variable (m : (ℓ : Loc nD τ sig) → Buf (Elt Ideal) ℓ) (ρ : Dev nD → PrngReg)

/-! ## The lines after the region -/

/-- The weights result after the lines that follow the region: the flat weights, folded back. -/
theorem weights_tail (c : Dev nD) :
    (Pipeline.afterTail₀ cfgs (dats m) 0 (V0 m) [hostOps1] c main_v7 : S16x8192x16.Idx → EReal)
      = shapeCast S16x8192x16 (flatWeights m c) shapeCasts_S131072x16_S16x8192x16 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v5_1)
      = flatWeights m c :=
    (Pipeline.withArrays_arr spec0 launch0.win.arr_inj c _ _ 6).trans (weights_final m c)
  rw [e]
  rfl

/-- The output result after the lines that follow the region: the flat outputs, folded back. -/
theorem output_tail (c : Dev nD) :
    (Pipeline.afterTail₀ cfgs (dats m) 0 (V0 m) [hostOps1] c main_v6 : S16x8192x128.Idx → EReal)
      = shapeCast S16x8192x128 (flatOutput m c) shapeCasts_S131072x128_S16x8192x128 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5_0)
      = flatOutput m c :=
    (Pipeline.withArrays_arr spec0 launch0.win.arr_inj c _ _ 5).trans (output_final m c)
  rw [e]
  rfl

/-! ## Row 8192·b + n is position (b, n) -/

/-- The flat row of position (b, n). -/
def flatRow (b : Fin 16) (n : Fin 8192) : Fin 131072 := ⟨8192 * b.val + n.val, by have := b.isLt; have := n.isLt; omega⟩

/-- The three parameter arrays the region read, in terms of the arguments. -/
theorem queryT_eq (c : Dev nD) :
    (fun (p : Fin 128) (d : Fin 512) => queryT m c (ix2 d p)) = mat (m ((c : Thread nD τ).loc main_arg3) : S128x512.Idx → EReal) :=
  funext fun p => funext fun d => Entry.queryW_at m c d p

theorem keysT_eq (c : Dev nD) :
    (fun (k : Fin 16) (p : Fin 128) => keysT m c (ix2 p k))
      = key (mat (m ((c : Thread nD τ).loc main_arg2) : S16x128.Idx → EReal)) (mat (m ((c : Thread nD τ).loc main_arg4) : S128x128.Idx → EReal)) :=
  funext fun k => funext fun p => Entry.keys_at m c p k

theorem book_eq (c : Dev nD) :
    (fun (k : Fin 16) (d : Fin 128) => book m c (ix2 k d)) = mat (m ((c : Thread nD τ).loc main_arg2) : S16x128.Idx → EReal) :=
  funext fun k => funext fun d => congrFun (V_main_arg2 m c) (ix2 k d)

theorem outT_eq (c : Dev nD) :
    (fun (p : Fin 128) (d : Fin 128) => outT m c (ix2 d p)) = mat (m ((c : Thread nD τ).loc main_arg5) : S128x128.Idx → EReal) :=
  funext fun p => funext fun d => Entry.outW_at m c d p

theorem rows_eq (c : Dev nD) (b : Fin 16) (n : Fin 8192) :
    (fun d => rows m c (ix2 (flatRow b n) d)) = rowAt (m ((c : Thread nD τ).loc main_arg0) : S16x8192x512.Idx → EReal) b n :=
  funext fun d => Entry.carry_at m c b n d

/-! ## The two results -/

/-- The kernel's weights result is the specification's weights array of the arguments. -/
theorem weights_result (c : Dev nD) :
    (Pipeline.afterTail₀ cfgs (dats m) 0 (V0 m) [hostOps1] c main_v7 : S16x8192x16.Idx → EReal)
      = weightsArr (m ((c : Thread nD τ).loc main_arg0)) (m ((c : Thread nD τ).loc main_arg2)) (m ((c : Thread nD τ).loc main_arg3))
          (m ((c : Thread nD τ).loc main_arg4)) := by
  rw [weights_tail]
  funext i
  have hi : i = (ix3 (⟨(i 0).val, (i 0).isLt⟩ : Fin 16) (⟨(i 1).val, (i 1).isLt⟩ : Fin 8192) (⟨(i 2).val, (i 2).isLt⟩ : Fin 16) : S16x8192x16.Idx) :=
    funext fun a => Fin.ext (by match a with | ⟨0, _⟩ => rfl | ⟨1, _⟩ => rfl | ⟨2, _⟩ => rfl)
  generalize (⟨(i 0).val, (i 0).isLt⟩ : Fin 16) = b at hi
  generalize (⟨(i 1).val, (i 1).isLt⟩ : Fin 8192) = n at hi
  generalize (⟨(i 2).val, (i 2).isLt⟩ : Fin 16) = k at hi
  subst hi
  refine (shapeCast_apply (flatWeights m c) shapeCasts_S131072x16_S16x8192x16 (ix3 b n k) (ix2 (flatRow b n) k) ?_).trans ?_
  · rw [Shape.rowMajor_val_two, Shape.rowMajor_val_three]
    show (8192 * b.val + n.val) * 16 + k.val = (b.val * 8192 + n.val) * 16 + k.val
    omega
  · rw [weightsArr_ix3]
    show rowWeights (fun d => rows m c (ix2 (flatRow b n) d)) (fun p d => queryT m c (ix2 d p)) (fun k p => keysT m c (ix2 p k)) k = _
    rw [rows_eq m c b n, queryT_eq m c, keysT_eq m c]

/-- The kernel's output result is the specification's output array of the arguments. -/
theorem output_result (c : Dev nD) :
    (Pipeline.afterTail₀ cfgs (dats m) 0 (V0 m) [hostOps1] c main_v6 : S16x8192x128.Idx → EReal)
      = outputArr (m ((c : Thread nD τ).loc main_arg0)) (m ((c : Thread nD τ).loc main_arg2)) (m ((c : Thread nD τ).loc main_arg3))
          (m ((c : Thread nD τ).loc main_arg4)) (m ((c : Thread nD τ).loc main_arg5)) := by
  rw [output_tail]
  funext i
  have hi : i = (ix3 (⟨(i 0).val, (i 0).isLt⟩ : Fin 16) (⟨(i 1).val, (i 1).isLt⟩ : Fin 8192) (⟨(i 2).val, (i 2).isLt⟩ : Fin 128) : S16x8192x128.Idx) :=
    funext fun a => Fin.ext (by match a with | ⟨0, _⟩ => rfl | ⟨1, _⟩ => rfl | ⟨2, _⟩ => rfl)
  generalize (⟨(i 0).val, (i 0).isLt⟩ : Fin 16) = b at hi
  generalize (⟨(i 1).val, (i 1).isLt⟩ : Fin 8192) = n at hi
  generalize (⟨(i 2).val, (i 2).isLt⟩ : Fin 128) = p at hi
  subst hi
  refine (shapeCast_apply (flatOutput m c) shapeCasts_S131072x128_S16x8192x128 (ix3 b n p) (ix2 (flatRow b n) p) ?_).trans ?_
  · rw [Shape.rowMajor_val_two, Shape.rowMajor_val_three]
    show (8192 * b.val + n.val) * 128 + p.val = (b.val * 8192 + n.val) * 128 + p.val
    omega
  · rw [outputArr_ix3]
    show rowOutput (fun d => rows m c (ix2 (flatRow b n) d)) (fun p d => queryT m c (ix2 d p)) (fun k p => keysT m c (ix2 p k))
      (fun k d => book m c (ix2 k d)) (fun p d => outT m c (ix2 d p)) p = _
    rw [rows_eq m c b n, queryT_eq m c, keysT_eq m c, book_eq m c, outT_eq m c]

/-! ## The run -/

/-- Every weakly fair execution of the idealized kernel program ends with the two results at the specification's arrays
    of the arguments, and the arguments as they were. -/
theorem run : θ_run defs (onTc (τ := τ) (main (F := Ideal))) ⟨m, fun _ => 0, ρ⟩ fun r => ∀ c : Dev nD,
      r.2.mem ((c.tc : Thread nD τ).loc main_v6)
        = outputArr (m ((c : Thread nD τ).loc main_arg0)) (m ((c : Thread nD τ).loc main_arg2)) (m ((c : Thread nD τ).loc main_arg3))
            (m ((c : Thread nD τ).loc main_arg4)) (m ((c : Thread nD τ).loc main_arg5))
      ∧ r.2.mem ((c.tc : Thread nD τ).loc main_v7)
        = weightsArr (m ((c : Thread nD τ).loc main_arg0)) (m ((c : Thread nD τ).loc main_arg2)) (m ((c : Thread nD τ).loc main_arg3))
            (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v6 (Pipeline.mem_restRefs_of main_v6 (by decide) (by decide))).trans (output_result m c),
      ((h c).2 main_v7 (Pipeline.mem_restRefs_of main_v7 (by decide) (by decide))).trans (weights_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.SoftCodebook.KernelRun

end
-- ==== Proof.lean ====
/-
  Every position of a [16, 8192, 512] input is scored against 16 learned keys and answered with a softmax-weighted
  mixture of 16 codebook rows, projected to 128 outputs; the results are the 16 weights and the 128 outputs of every
  position. The kernel does this in 64 blocks of 2048 positions over the input flattened to rows, on matrices transposed
  beforehand; the reference does it on the whole arrays at once. Over the extended reals the two compute, position by
  position, the same sums, the same maximum, the same exponentials and the same quotients in the same order, so both
  results agree entry by entry, whatever the inputs (no appeal to finiteness is made).

  The pieces: Proof/Spec.lean states a position's weights and outputs as functions of its row and of the parameter
  matrices, and the two result arrays over them; Proof/RefValue.lean shows the reference's results are those arrays;
  Proof/Payload.lean reads the kernel body's two stored values at an entry of a block; Proof/Entry.lean says what the
  kernel's region finds in the arrays its windows read; Proof/Blocks.lean turns the 64 written blocks into the two flat
  result arrays; Proof/KernelRun.lean folds those back to three axes and states the kernel program's run. The three
  programs terminate and leave their arguments alone by their generated frames and the reference's generated run; the
  idealized kernel is the printed kernel read at the extended reals, with no rewrite to justify.
-/
import proofs.«176541_j85693187490397_1_alg».proof.Defs
import proofs.«176541_j85693187490397_1_alg».proof.Proof.Gen.Kernel
import proofs.«176541_j85693187490397_1_alg».proof.Proof.Gen.Kernel.Skeleton
import proofs.«176541_j85693187490397_1_alg».proof.Proof.Gen.Kernel.Launch
import proofs.«176541_j85693187490397_1_alg».proof.Proof.Gen.Kernel.Points
import proofs.«176541_j85693187490397_1_alg».proof.Proof.Gen.Kernel.Frame
import proofs.«176541_j85693187490397_1_alg».proof.Proof.Gen.KernelIdeal
import proofs.«176541_j85693187490397_1_alg».proof.Proof.Gen.KernelIdeal.Skeleton
import proofs.«176541_j85693187490397_1_alg».proof.Proof.Gen.KernelIdeal.Launch
import proofs.«176541_j85693187490397_1_alg».proof.Proof.Gen.KernelIdeal.Points
import proofs.«176541_j85693187490397_1_alg».proof.Proof.Gen.KernelIdeal.Frame
import proofs.«176541_j85693187490397_1_alg».proof.Proof.Gen.ReferenceIdeal
import proofs.«176541_j85693187490397_1_alg».proof.Proof.Gen.Pre_finite_inputs
import proofs.«176541_j85693187490397_1_alg».proof.Proof.Gen.ReferenceIdeal.Run
import proofs.«176541_j85693187490397_1_alg».proof.Proof.Gen.ReferenceIdeal.Read
import proofs.«176541_j85693187490397_1_alg».proof.Proof.RefValue
import proofs.«176541_j85693187490397_1_alg».proof.Proof.KernelRun
import Idealize.ShloMosaic.Adequacy
import Idealize.ShloMosaic.Init

noncomputable section

namespace Cert.Proof

open Idealize.ShloMosaic Idealize.SL.Sem

/-- The printed kernel terminates without a fault and leaves its arguments as they were. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- So does the reference: its run, with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- The idealized kernel is the printed one read at the extended reals: there is no rewrite to account for. -/
theorem preserves : Cert.preserves_Kernel_KernelIdeal := trivial

/-- From memories that agree on the arguments both programs end with the specification's two arrays of those arguments. -/
theorem algebraic : Cert.algebraic_KernelIdeal_ReferenceIdeal := by
  intro m ρ m' ρ' _ hagree
  refine ⟨_, _, Cert.SoftCodebook.KernelRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v17_eq, Cert.SoftCodebook.Reference.output_eq,
      (hagree c).1, (hagree c).2.2.1, (hagree c).2.2.2.1, (hagree c).2.2.2.2.1, (hagree c).2.2.2.2.2]
  · rw [Cert.ReferenceIdeal.Read.val_main_v15_eq, Cert.SoftCodebook.Reference.weights_eq,
      (hagree c).1, (hagree c).2.2.1, (hagree c).2.2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
